-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S1000x10x512 : Shape := ⟨3, ![1000, 10, 512]⟩
abbrev S4096x1000 : Shape := ⟨2, ![4096, 1000]⟩
abbrev S1000 : Shape := ⟨1, ![1000]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x10x512 : S_.BroadcastsInDim S1000x10x512 (![] : Fin 0 → Fin S1000x10x512.rank)
  reducesTo_S1000x10x512_S_d0_1_2 : S1000x10x512.ReducesTo [0, 1, 2] S_
  bcast_S_S4096x1000 : S_.BroadcastsInDim S4096x1000 (![] : Fin 0 → Fin S4096x1000.rank)
  reducesTo_S4096x1000_S_d0_1 : S4096x1000.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg1 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x512 .f32) (main_arg1 : IVec S4096 32) (main_arg2 : FVec F S1000x10x512 .f32) (main_arg3 : FVec F S4096x1000 .f32) (main_arg4 : IVec S1000 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x10x512 .f32 := Host.absf main_arg2
  let main_cst_0 : FVec F S_ .f32 := constant S_ .f32 0x7F800000#32
  let main_v5 : FVec F S1000x10x512 .f32 := broadcastInDim S1000x10x512 ![] bcast_S_S1000x10x512 main_cst_0
  let main_v6 : IVec S1000x10x512 1 := cmpf .olt main_v4 main_v5
  let main_c_1 : IVec S_ 1 := constantI S_ 1 1#1
  let main_v7 : IVec S_ 1 := (fun x v => Host.reduce IntOp.andi x v reducesTo_S1000x10x512_S_d0_1_2 h_S_) main_v6 main_c_1
  let main_v8 : IVec S_ 1 := andi main_v3 main_v7
  let main_v9 : FVec F S4096x1000 .f32 := Host.absf main_arg3
  let main_cst_2 : FVec F S_ .f32 := constant S_ .f32 0x7F800000#32
  let main_v10 : FVec F S4096x1000 .f32 := broadcastInDim S4096x1000 ![] bcast_S_S4096x1000 main_cst_2
  let main_v11 : IVec S4096x1000 1 := cmpf .olt main_v9 main_v10
  let main_c_3 : IVec S_ 1 := constantI S_ 1 1#1
  let main_v12 : IVec S_ 1 := (fun x v => Host.reduce IntOp.andi x v reducesTo_S4096x1000_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 32 := constantI S_ 32 1000#32
  fn_part1 (F := F) main_arg1 main_v13 main_v15 main_c_5
-- ==== Kernel.lean ====
abbrev S4096x512 : Shape := ⟨2, ![4096, 512]⟩
abbrev S4096 : Shape := ⟨1, ![4096]⟩
abbrev S1000x10x512 : Shape := ⟨3, ![1000, 10, 512]⟩
abbrev S4096x1000 : Shape := ⟨2, ![4096, 1000]⟩
abbrev S1000 : Shape := ⟨1, ![1000]⟩
abbrev S_ : Shape := ⟨0, ![]⟩
abbrev S4096x1 : Shape := ⟨2, ![4096, 1]⟩
abbrev S10x1000x512 : Shape := ⟨3, ![10, 1000, 512]⟩
abbrev S512x512 : Shape := ⟨2, ![512, 512]⟩
abbrev S512x1 : Shape := ⟨2, ![512, 1]⟩
abbrev S1x1000x512 : Shape := ⟨3, ![1, 1000, 512]⟩
abbrev S1000x512 : Shape := ⟨2, ![1000, 512]⟩
abbrev S512x1000 : Shape := ⟨2, ![512, 1000]⟩
abbrev S512 : Shape := ⟨1, ![512]⟩

abbrev nBuf : Space → Nat
  | .hbm => 25
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x10x512, .f32⟩
  | .hbm, ⟨3, _⟩ => ⟨S4096x1000, .f32⟩
  | .hbm, ⟨4, _⟩ => ⟨S1000, .i32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .bf16⟩
  | .hbm, ⟨16, _⟩ => ⟨S10x1000x512, .f32⟩
  | .hbm, ⟨17, _⟩ => ⟨S10x1000x512, .bf16⟩
  | .hbm, ⟨18, _⟩ => ⟨S4096x1, .i32⟩
  | .hbm, ⟨19, _⟩ => ⟨S4096x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S10x1000x512, .bf16⟩
  | .local _ .vmem, ⟨3, _⟩ => ⟨S512x1, .i32⟩
  | .local _ .vmem, ⟨4, _⟩ => ⟨S512x1, .i32⟩
  | .local _ .vmem, ⟨5, _⟩ => ⟨S512x1, .f32⟩
  | .local _ .vmem, ⟨6, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  transposes_S1000x10x512_S10x1000x512_1_0_2 : S1000x10x512.Transposes [1, 0, 2] S10x1000x512
  shapeCasts_S4096_S4096x1 : S4096.ShapeCasts S4096x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S10x1000x512_S1x1000x512_0_0_0 : ∀ a, (![0, 0, 0] : Fin 3 → Nat) a + S1x1000x512.size a ≤ S10x1000x512.size a
  h_S1x1000x512 : 0 < S1x1000x512.numel
  shapeCasts_S1x1000x512_S1000x512 : S1x1000x512.ShapeCasts S1000x512
  inb_S10x1000x512_S1x1000x512_1_0_0 : ∀ a, (![1, 0, 0] : Fin 3 → Nat) a + S1x1000x512.size a ≤ S10x1000x512.size a
  inb_S10x1000x512_S1x1000x512_2_0_0 : ∀ a, (![2, 0, 0] : Fin 3 → Nat) a + S1x1000x512.size a ≤ S10x1000x512.size a
  inb_S10x1000x512_S1x1000x512_3_0_0 : ∀ a, (![3, 0, 0] : Fin 3 → Nat) a + S1x1000x512.size a ≤ S10x1000x512.size a
  inb_S10x1000x512_S1x1000x512_4_0_0 : ∀ a, (![4, 0, 0] : Fin 3 → Nat) a + S1x1000x512.size a ≤ S10x1000x512.size a
  inb_S10x1000x512_S1x1000x512_5_0_0 : ∀ a, (![5, 0, 0] : Fin 3 → Nat) a + S1x1000x512.size a ≤ S10x1000x512.size a
  inb_S10x1000x512_S1x1000x512_6_0_0 : ∀ a, (![6, 0, 0] : Fin 3 → Nat) a + S1x1000x512.size a ≤ S10x1000x512.size a
  inb_S10x1000x512_S1x1000x512_7_0_0 : ∀ a, (![7, 0, 0] : Fin 3 → Nat) a + S1x1000x512.size a ≤ S10x1000x512.size a
  inb_S10x1000x512_S1x1000x512_8_0_0 : ∀ a, (![8, 0, 0] : Fin 3 → Nat) a + S1x1000x512.size a ≤ S10x1000x512.size a
  inb_S10x1000x512_S1x1000x512_9_0_0 : ∀ a, (![9, 0, 0] : Fin 3 → Nat) a + S1x1000x512.size a ≤ S10x1000x512.size a
  iota_S512x1000_d1_w32 : S512x1000.Iotas .tc 32 [1]
  broadcasts_S512x1_S512x1000 : S512x1.Broadcasts S512x1000
  reduces_S512x1000_S512 : S512x1000.Reduces [1] S512
  shapeCasts_S512_S512x1 : S512.ShapeCasts S512x1
  reducesTo_S4096x1_S_d0_1 : S4096x1.ReducesTo [0, 1] S_
  dot_S512x512_S1000x512_S512x1000_1_1_0_0_n_n_wf : DotDims.WF S512x512 S1000x512 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1000x512.size a ≤ S10x1000x512.size a
  hwx0_1 : ∀ i : grid0.Coords, EltTy.bits .bf16 = 32 ∨ (Rect.block (s := S10x1000x512) S10x1000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf

abbrev win0_0 : Pipeline.Window sig grid0 :=
  Pipeline.Window.ofSpec (Memref.whole main_v5) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10x1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S1000x10x512 : Shape := ⟨3, ![1000, 10, 512]⟩
abbrev S4096x1000 : Shape := ⟨2, ![4096, 1000]⟩
abbrev S1000 : Shape := ⟨1, ![1000]⟩
abbrev S_ : Shape := ⟨0, ![]⟩
abbrev S4096x1 : Shape := ⟨2, ![4096, 1]⟩
abbrev S4096x1000x10 : Shape := ⟨3, ![4096, 1000, 10]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x10x512, .f32⟩
  | .hbm, ⟨3, _⟩ => ⟨S4096x1000, .f32⟩
  | .hbm, ⟨4, _⟩ => ⟨S1000, .i32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x1000x10, .f32⟩
  | .hbm, ⟨16, _⟩ => ⟨S_, .f32⟩
  | .hbm, ⟨17, _⟩ => ⟨S4096x1000, .f32⟩
  | .hbm, ⟨18, _⟩ => ⟨S_, .f32⟩
  | .hbm, ⟨19, _⟩ => ⟨S4096x1000, .f32⟩
  | .hbm, ⟨20, _⟩ => ⟨S4096x1000, .f32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S4096x1x1, .i32⟩
  | .hbm, ⟨30, _⟩ => ⟨S1, .i32⟩
  | .hbm, ⟨31, _⟩ => ⟨S_, .i32⟩
  | .hbm, ⟨32, _⟩ => ⟨S4096x1x1, .i32⟩
  | .hbm, ⟨33, _⟩ => ⟨S4096x1x1, .i1⟩
  | .hbm, ⟨34, _⟩ => ⟨S1x1x1, .i32⟩
  | .hbm, ⟨35, _⟩ => ⟨S4096x1x1, .i32⟩
  | .hbm, ⟨36, _⟩ => ⟨S4096x1x1, .i1⟩
  | .hbm, ⟨37, _⟩ => ⟨S4096x1x1, .i1⟩
  | .hbm, ⟨38, _⟩ => ⟨S_, .i1⟩
  | .hbm, ⟨39, _⟩ => ⟨S4096x1, .i1⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096, .f32⟩
  | .hbm, ⟨45, _⟩ => ⟨S4096x1000, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_cst_4 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S4096x1000x10_S4096x1000_d2 : S4096x1000x10.ReducesTo [2] S4096x1000
  bcast_S_S4096x1000 : S_.BroadcastsInDim S4096x1000 (![] : Fin 0 → Fin S4096x1000.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096x1000_S4096_d1 : S4096x1000.ReducesTo [1] S4096
  reducesTo_S4096_S_d0 : S4096.ReducesTo [0] S_
  dot_S4096x512_S1000x10x512_S4096x1000x10_1_2_0_01_n_n_wf : DotDims.WF S4096x512 S1000x10x512 S4096x1000x10 [1] [2] [0] [0, 1] [] []
  gather_S4096x1000_S4096x1x1_S4096x1_n_1_0_0_1_2_11_wf : GatherDims.WF S4096x1000 S4096x1x1 S4096x1 [] [1] [0] [1] [0] 2 ![1, 1]

variable [Facts₀]

def dot_S4096x512_S1000x10x512_S4096x1000x10_1_2_0_01_n_n : DotDims S4096x512 S1000x10x512 S4096x1000x10 where
  lhsContracting := [1]
  rhsContracting := [2]
  lhsNonContracting := [0]
  rhsNonContracting := [0, 1]
  lhsBatch := []
  rhsBatch := []
  wf := dot_S4096x512_S1000x10x512_S4096x1000x10_1_2_0_01_n_n_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf

class Facts : Prop extends Facts₀ where

variable [Facts]
-- ==== Proof.Spec.lean ====
/-
  The loss both programs compute, as one function of the argument arrays.

  For a batch row with feature vector `x` (512 entries) the normalized row is `x / max (‖x‖₂, ε)` with
  `‖x‖₂ = √(∑ x²)`. Against prototype `(c, k)` its score is the inner product over the 512 features; the
  class logit is the best score over the 10 prototypes of the class, times the inverse temperature; the row's
  term is the logit of the row's own label minus the logarithm of the sum of the exponentials of all 1000
  logits; the loss is minus the mean of the 4096 row terms.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The inverse temperature: the reciprocal of the temperature's single-precision value `13421773 / 2^27`. -/
def invTemp : EReal := ((134217728 / 13421773 : ℝ) : EReal)

/-- The Euclidean norm of a row, floored at the (single-precision) `1e-12`. -/
def rowNorm (x : Fin 512 → EReal) : EReal :=
  max (Ideal.sqrt (Ideal.ofBits .f32 0x00000000#32 + ∑ d : Fin 512, x d * x d)) (Ideal.ofBits .f32 0x2B8CBCCC#32)

/-- A row divided by its floored norm. -/
def normRow (x : Fin 512 → EReal) : Fin 512 → EReal := fun d => Ideal.div (x d) (rowNorm x)

/-- The inner product of a normalized row with prototype `k` of class `c`. -/
def score (xr : Fin 512 → EReal) (p : Fin 1000 → Fin 10 → Fin 512 → EReal) (c : Fin 1000) (k : Fin 10) : EReal :=
  ∑ d : Fin 512, xr d * p c k d

/-- The best score of a class over its ten prototypes (`⊥`, that is `-∞`, is the neutral element of `max`). -/
def best (xr : Fin 512 → EReal) (p : Fin 1000 → Fin 10 → Fin 512 → EReal) (c : Fin 1000) : EReal :=
  (Finset.univ : Finset (Fin 10)).fold max ⊥ (score xr p c)

/-- The class logit: the best score times the inverse temperature. -/
def logit (xr : Fin 512 → EReal) (p : Fin 1000 → Fin 10 → Fin 512 → EReal) (c : Fin 1000) : EReal :=
  best xr p c * invTemp

/-- The entry of a row of 1000 values that a 32-bit label word names; `0` when the word names none. -/
def pick (L : Fin 1000 → EReal) (w : BitVec 32) : EReal :=
  if h : w.toNat < 1000 then L ⟨w.toNat, h⟩ else 0

/-- The logarithm of the sum of the exponentials of a row of 1000 values. -/
def logSumExp (L : Fin 1000 → EReal) : EReal := Ideal.log (∑ c : Fin 1000, Ideal.exp (L c))

/-- One batch row's term: its own label's logit minus the log-sum-exp of all its logits. -/
def rowTerm (x : Fin 512 → EReal) (p : Fin 1000 → Fin 10 → Fin 512 → EReal) (w : BitVec 32) : EReal :=
  pick (logit (normRow x) p) w - logSumExp (logit (normRow x) p)

/-- The loss: minus the sum of the 4096 row terms divided by (the single-precision) `4096`. -/
def loss (feat : (⟨2, ![4096, 512]⟩ : Shape).Idx → EReal) (label : (⟨1, ![4096]⟩ : Shape).Idx → BitVec 32)
    (proto : (⟨3, ![1000, 10, 512]⟩ : Shape).Idx → EReal) : EReal :=
  -(Ideal.div (Ideal.ofBits .f32 0x00000000#32
      + ∑ b : Fin 4096, rowTerm (fun d => feat (ix2 b d)) (fun c k d => proto (ix3 c k d)) (label (ix1 b)))
    (Ideal.ofBits .f32 0x45800000#32))

end Cert.Spec

end
-- ==== Proof.RowMath.lean ====
/-
  Row mathematics over the extended reals.

  Facts about rows of extended reals all of whose entries are real numbers: finiteness is kept by products, finite
  sums and maxima; a few single-precision bit patterns read as extended reals; division by a positive real constant is
  multiplication by its reciprocal; a left-nested chain of binary maxima is the fold of the maximum; the numerically
  stable log-sum-exp (shifted by the row's maximum) equals the plain one; and a one-hot-masked sum picks one entry.
-/
import Idealize.ShloMosaic.PureOps.Ideal
import Idealize.ShloMosaic.PureOps.Ideal.Laws
import Mathlib.Data.EReal.Operations
import Mathlib.Analysis.SpecialFunctions.Log.Basic
import Mathlib.Analysis.SpecialFunctions.Exp
import Mathlib.Analysis.SpecialFunctions.Sqrt
import Mathlib.Algebra.BigOperators.Fin
import Mathlib.Algebra.Order.BigOperators.Group.Finset
import Mathlib.Data.Finset.Fold

open scoped BigOperators

noncomputable section

namespace Cert.RowMath

open Idealize.ShloMosaic

/-! ## Sums of extended reals -/

/-- The embedding of the reals passes through a finite sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot {ι : Type*} (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤`. -/
theorem sum_ne_top {ι : Type*} (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-! ## Real entries -/

/-- An extended real that is neither infinity: a real number. -/
def IsReal (x : EReal) : Prop := x ≠ ⊥ ∧ x ≠ ⊤

/-- A finite extended real is the image of a real number. -/
theorem IsReal.exists_coe {x : EReal} (h : IsReal x) : ∃ r : ℝ, x = (r : EReal) :=
  ⟨x.toReal, (EReal.coe_toReal h.2 h.1).symm⟩

/-- The image of a real number is finite. -/
theorem isReal_coe (r : ℝ) : IsReal (r : EReal) := ⟨EReal.coe_ne_bot r, EReal.coe_ne_top r⟩

/-- A product of two finite extended reals is finite. -/
theorem isReal_mul {x y : EReal} (hx : IsReal x) (hy : IsReal y) : IsReal (x * y) := by
  obtain ⟨a, rfl⟩ := hx.exists_coe
  obtain ⟨b, rfl⟩ := hy.exists_coe
  rw [← EReal.coe_mul]
  exact isReal_coe _

/-- A finite sum of finite extended reals is finite. -/
theorem isReal_sum {ι : Type*} (s : Finset ι) (f : ι → EReal) (h : ∀ i ∈ s, IsReal (f i)) :
    IsReal (∑ i ∈ s, f i) :=
  ⟨sum_ne_bot s f fun i hi => (h i hi).1, sum_ne_top s f fun i hi => (h i hi).2⟩

/-- The maximum, started from `⊥`, of a non-empty family of finite extended reals is finite: it is below `⊤` because
    the start and every entry are, and above `⊥` because some entry is. -/
theorem isReal_fold_max {ι : Type*} (s : Finset ι) (hs : s.Nonempty) (f : ι → EReal) (h : ∀ i ∈ s, IsReal (f i)) :
    IsReal (s.fold max ⊥ f) := by
  obtain ⟨i, hi⟩ := hs
  refine ⟨ne_of_gt ?_, ne_of_lt ?_⟩
  · exact (Finset.lt_fold_max _).2 (Or.inr ⟨i, hi, bot_lt_iff_ne_bot.2 (h i hi).1⟩)
  · exact (Finset.fold_max_lt _).2 ⟨bot_lt_top, fun j hj => lt_top_iff_ne_top.2 (h j hj).2⟩

/-- Ten finite entries have a finite maximum. -/
theorem isReal_fold_max10 (s : Fin 10 → EReal) (h : ∀ k, IsReal (s k)) :
    IsReal ((Finset.univ : Finset (Fin 10)).fold max ⊥ s) :=
  isReal_fold_max Finset.univ Finset.univ_nonempty s fun k _ => h k

/-! ## Single-precision patterns as extended reals -/

/-- The pattern of `+0.0` denotes `0`. -/
theorem ofBits_zero : Ideal.ofBits .f32 0x00000000#32 = 0 := by
  simp [Ideal.ofBits, Ideal.ieee]

/-- Sign set, exponent all ones, fraction zero: `-∞`. -/
theorem ofBits_neg_inf : Ideal.ofBits .f32 0xFF800000#32 = ⊥ := by
  simp [Ideal.ofBits, Ideal.ieee]

/-- Sign clear, exponent all ones, fraction zero: `+∞`. -/
theorem ofBits_pos_inf : Ideal.ofBits .f32 0x7F800000#32 = ⊤ := by
  simp [Ideal.ofBits, Ideal.ieee]

/-- The single-precision number nearest to one tenth: exponent field `123`, fraction field `5033165`, that is
    `(2^23 + 5033165) · 2^(123 - 127 - 23) = 13421773 / 2^27`. -/
theorem ofBits_tenth : Ideal.ofBits .f32 0x3DCCCCCD#32 = ((13421773 / 134217728 : ℝ) : EReal) := by
  simp [Ideal.ofBits, Ideal.ieee, -EReal.coe_mul]; norm_num

/-- The single-precision number nearest to `1e-12`: exponent field `87`, fraction field `834764`, that is
    `(2^23 + 834764) · 2^(87 - 127 - 23) = 9223372 / 2^63`. -/
theorem ofBits_eps_val : Ideal.ofBits .f32 0x2B8CBCCC#32 = ((9223372 / 9223372036854775808 : ℝ) : EReal) := by
  simp [Ideal.ofBits, Ideal.ieee, -EReal.coe_mul]; norm_num

/-- The norm's floor is a positive real. -/
theorem ofBits_eps : ∃ e : ℝ, 0 < e ∧ Ideal.ofBits .f32 0x2B8CBCCC#32 = (e : EReal) :=
  ⟨9223372 / 9223372036854775808, by norm_num, ofBits_eps_val⟩

/-- Dividing by the single-precision one tenth is multiplying by its exact reciprocal, on every extended real. -/
theorem div_tenth (x : EReal) :
    Ideal.div x (Ideal.ofBits .f32 0x3DCCCCCD#32) = x * ((134217728 / 13421773 : ℝ) : EReal) := by
  have h : (1 / (13421773 / 134217728 : ℝ)) = 134217728 / 13421773 := by norm_num
  rw [ofBits_tenth, Ideal.div_coe (by norm_num), h]

/-! ## A row divided by its floored Euclidean norm -/

/-- A real row divided by the larger of its Euclidean norm and the positive floor is real: the sum of squares is a
    non-negative real, its root a real, the larger of two reals one of which is positive is a positive real, and
    division by a non-zero real is multiplication by a real. -/
theorem isReal_div_norm (x : Fin 512 → EReal) (hx : ∀ d, IsReal (x d)) (d : Fin 512) :
    IsReal (Ideal.div (x d) (max (Ideal.sqrt (Ideal.ofBits .f32 0x00000000#32 + ∑ d' : Fin 512, x d' * x d'))
      (Ideal.ofBits .f32 0x2B8CBCCC#32))) := by
  choose r hr using fun d => (hx d).exists_coe
  obtain ⟨e, he, hE⟩ := ofBits_eps
  have hs : ∑ d' : Fin 512, x d' * x d' = ((∑ d' : Fin 512, r d' * r d' : ℝ) : EReal) := by
    rw [← sum_coe]
    refine Finset.sum_congr rfl fun d' _ => ?_
    rw [hr d', EReal.coe_mul]
  have hnn : 0 ≤ ∑ d' : Fin 512, r d' * r d' := Finset.sum_nonneg fun d' _ => mul_self_nonneg _
  have hmax : max ((Real.sqrt (∑ d' : Fin 512, r d' * r d') : ℝ) : EReal) (e : EReal)
      = ((max (Real.sqrt (∑ d' : Fin 512, r d' * r d')) e : ℝ) : EReal) :=
    (EReal.coe_strictMono.monotone.map_max).symm
  have hne : max (Real.sqrt (∑ d' : Fin 512, r d' * r d')) e ≠ 0 :=
    ne_of_gt (lt_of_lt_of_le he (le_max_right _ _))
  rw [ofBits_zero, zero_add, hs, Ideal.sqrt_coe, if_neg (not_lt.2 hnn), hE, hmax, Ideal.div_coe hne, hr d,
    ← EReal.coe_mul]
  exact isReal_coe _

/-! ## Maxima -/

/-- A left-nested chain of nine binary maxima over ten entries is the fold of the maximum started from `⊥`: each
    side is the least upper bound of the ten entries. -/
theorem chain_max10 (s : Fin 10 → EReal) :
    max (max (max (max (max (max (max (max (max (s 0) (s 1)) (s 2)) (s 3)) (s 4)) (s 5)) (s 6)) (s 7)) (s 8)) (s 9)
      = (Finset.univ : Finset (Fin 10)).fold max ⊥ s := by
  have up : ∀ k : Fin 10, s k ≤ (Finset.univ : Finset (Fin 10)).fold max ⊥ s := fun k =>
    (Finset.le_fold_max _).2 (Or.inr ⟨k, Finset.mem_univ k, le_rfl⟩)
  apply le_antisymm
  · exact max_le (max_le (max_le (max_le (max_le (max_le (max_le (max_le (max_le (up 0) (up 1)) (up 2)) (up 3))
      (up 4)) (up 5)) (up 6)) (up 7)) (up 8)) (up 9)
  · refine (Finset.fold_max_le _).2 ⟨bot_le, fun k _ => ?_⟩
    fin_cases k <;> simp [le_max_iff]

/-! ## Log-sum-exp -/

/-- Over the reals: shifting every exponent by `m` divides the sum of exponentials by `exp m`, and the logarithm turns
    that division into subtracting `m`. This holds for every real `m`. -/
theorem lse_real {ι : Type*} (s : Finset ι) (hs : s.Nonempty) (l : ι → ℝ) (m : ℝ) :
    m + Real.log (∑ c ∈ s, Real.exp (l c - m)) = Real.log (∑ c ∈ s, Real.exp (l c)) := by
  have hpos : 0 < ∑ c ∈ s, Real.exp (l c) := Finset.sum_pos (fun c _ => Real.exp_pos _) hs
  have h1 : ∑ c ∈ s, Real.exp (l c - m) = (∑ c ∈ s, Real.exp (l c)) / Real.exp m := by
    rw [Finset.sum_div]
    exact Finset.sum_congr rfl fun c _ => Real.exp_sub _ _
  rw [h1, Real.log_div hpos.ne' (Real.exp_pos m).ne', Real.log_exp]
  ring

/-- The numerically stable log-sum-exp equals the plain one, for a row of a thousand real numbers: the row's maximum
    is a real number, every exponential and both sums are positive reals, so both sides are images of reals and the
    identity over the reals applies. -/
theorem lse_shift (L : Fin 1000 → EReal) (hL : ∀ c, IsReal (L c)) :
    (Finset.univ : Finset (Fin 1000)).fold max ⊥ L
        + Ideal.log (∑ c : Fin 1000, Ideal.exp (L c - (Finset.univ : Finset (Fin 1000)).fold max ⊥ L))
      = Ideal.log (∑ c : Fin 1000, Ideal.exp (L c)) := by
  choose l hl using fun c => (hL c).exists_coe
  obtain ⟨m, hm⟩ := (isReal_fold_max Finset.univ Finset.univ_nonempty L fun c _ => hL c).exists_coe
  rw [hm]
  have hpos1 : 0 < ∑ c : Fin 1000, Real.exp (l c - m) :=
    Finset.sum_pos (fun c _ => Real.exp_pos _) Finset.univ_nonempty
  have hpos2 : 0 < ∑ c : Fin 1000, Real.exp (l c) :=
    Finset.sum_pos (fun c _ => Real.exp_pos _) Finset.univ_nonempty
  have e1 : ∑ c : Fin 1000, Ideal.exp (L c - (m : EReal)) = ((∑ c : Fin 1000, Real.exp (l c - m) : ℝ) : EReal) := by
    rw [← sum_coe]
    refine Finset.sum_congr rfl fun c _ => ?_
    rw [hl c, ← EReal.coe_sub, Ideal.exp_coe]
  have e2 : ∑ c : Fin 1000, Ideal.exp (L c) = ((∑ c : Fin 1000, Real.exp (l c) : ℝ) : EReal) := by
    rw [← sum_coe]
    refine Finset.sum_congr rfl fun c _ => ?_
    rw [hl c, Ideal.exp_coe]
  rw [e1, e2, Ideal.log_coe, Ideal.log_coe, if_neg (not_le.2 hpos1), if_neg (not_le.2 hpos2), ← EReal.coe_add,
    lse_real Finset.univ Finset.univ_nonempty l m]

/-! ## One-hot sums -/

/-- A class index below a thousand, written as a 32-bit word, equals the word `w` exactly when it is `w`'s value. -/
theorem ofNat_eq_iff (c : Fin 1000) (w : BitVec 32) : BitVec.ofNat 32 c.val = w ↔ c.val = w.toNat := by
  have hc : c.val % 2 ^ 32 = c.val := Nat.mod_eq_of_lt (lt_trans c.isLt (by norm_num))
  constructor
  · intro h
    rw [← h, BitVec.toNat_ofNat, hc]
  · intro h
    apply BitVec.eq_of_toNat_eq
    rw [BitVec.toNat_ofNat, hc, h]

/-- A one-hot-masked sum picks the labelled entry, and is `0` when the word names no class. -/
theorem sum_pick (L : Fin 1000 → EReal) (w : BitVec 32) :
    ∑ c : Fin 1000, (if BitVec.ofNat 32 c.val = w then L c else 0)
      = if h : w.toNat < 1000 then L ⟨w.toNat, h⟩ else 0 := by
  by_cases h : w.toNat < 1000
  · rw [dif_pos h, Finset.sum_eq_single (⟨w.toNat, h⟩ : Fin 1000)]
    · rw [if_pos ((ofNat_eq_iff _ w).2 rfl)]
    · intro b _ hb
      rw [if_neg]
      intro hb'
      exact hb (Fin.ext ((ofNat_eq_iff b w).1 hb'))
    · intro hn
      exact absurd (Finset.mem_univ _) hn
  · rw [dif_neg h]
    refine Finset.sum_eq_zero fun c _ => ?_
    rw [if_neg]
    intro hc
    exact h ((ofNat_eq_iff c w).1 hc ▸ c.isLt)

end Cert.RowMath

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.RefRow.lean ====
/-
  The reference program's result, read row by row.

  The reference normalizes each batch row by its floored Euclidean norm, scores it against the ten prototypes of
  each of the 1000 classes, keeps the best score per class, divides by the temperature, takes the logit of the
  row's own label, subtracts the logarithm of the sum of the exponentials of the row's logits, and returns minus
  the mean over the 4096 rows. Each operation of the program is read at an index; the maximum over the ten
  prototypes, the in-bounds conjunction over an axis of extent one and the take along the class axis are read from
  their definitions. When every label word names a class the take is in bounds and reads the label's logit.
-/
import proofs.«405886_j88708254531874_1_alg».proof.Proof.Gen.ReferenceIdeal.Run
import proofs.«405886_j88708254531874_1_alg».proof.Proof.Gen.ReferenceIdeal.Read
import proofs.«405886_j88708254531874_1_alg».proof.Proof.Spec
import proofs.«405886_j88708254531874_1_alg».proof.Proof.RowMath
import proofs.«405886_j88708254531874_1_alg».proof.Proof.LibSums
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Predicate
import Mathlib.Data.Finset.Fold

noncomputable section

namespace Cert.ReferenceIdeal.RefValue

open Idealize.ShloMosaic Idealize.ShloMosaic.ValueIdx Cert.ReferenceIdeal Cert.ReferenceIdeal.Gen Cert.ReferenceIdeal.Read

/-- The feature array, the label words and the prototype array of the reference program. -/
abbrev Feat : Type := (⟨S4096x512, .f32⟩ : BufTy).Contents (Elt Ideal)
abbrev Lab : Type := (⟨S4096, .i32⟩ : BufTy).Contents (Elt Ideal)
abbrev Proto : Type := (⟨S1000x10x512, .f32⟩ : BufTy).Contents (Elt Ideal)

/-! ## The two reductions and the gather, read at an index -/

theorem reduces_scores : S4096x1000x10.Reduces [2] S4096x1000 := by decide
theorem reduces_inb : S4096x1x1.Reduces [2] S4096x1 := by decide

/-- The maximum over the last axis, of extent ten, read at (b, c): the fold of the maximum, from the initial value,
    over the ten entries (b, c, k). -/
theorem reduce_max_apply (y : S4096x1000x10.Idx → EReal) (init : S_.Idx → EReal) (b : Fin 4096) (c : Fin 1000) :
    Host.reduce (FloatOps.maximumf (F := Ideal) (φ := .f32)) y init reducesTo_S4096x1000x10_S4096x1000_d2 h_S_ (ix2 b c)
      = (Finset.univ : Finset (Fin 10)).fold max (init (Shape.Idx.first h_S_)) (fun k => y (ix3 b c k)) := by
  rw [Host.reduce_eq_fold_single (FloatOps.maximumf (F := Ideal) (φ := .f32)) y init
    reducesTo_S4096x1000x10_S4096x1000_d2 reduces_scores h_S_]
  refine congrArg (fun f => Finset.fold max (init (Shape.Idx.first h_S_)) f (Finset.univ : Finset (Fin 10)))
    (funext fun k => congrArg y (funext fun a => Fin.ext ?_))
  match a with
  | ⟨0, _⟩ => rfl
  | ⟨1, _⟩ => rfl
  | ⟨2, _⟩ => rfl

/-- The conjunction over the last axis, of extent one, read at (b, 0): the one entry (b, 0, 0) and the initial value. -/
theorem reduce_and_apply (p : S4096x1x1.Idx → BitVec 1) (init : S_.Idx → BitVec 1) (b : Fin 4096) :
    Host.reduce IntOp.andi p init reducesTo_S4096x1x1_S4096x1_d2 h_S_ (ix2 b (0 : Fin 1))
      = IntOp.andi (p (ix3 b (0 : Fin 1) (0 : Fin 1))) (init (Shape.Idx.first h_S_)) := by
  rw [Host.reduce_eq_fold_single IntOp.andi p init reducesTo_S4096x1x1_S4096x1_d2 reduces_inb h_S_]
  show Finset.fold IntOp.andi (init (Shape.Idx.first h_S_)) (p ∘ reduces_inb.lift (ix2 b (0 : Fin 1))) ({0} : Finset (Fin 1)) = _
  refine (Finset.fold_singleton (op := IntOp.andi) (f := p ∘ reduces_inb.lift (ix2 b (0 : Fin 1)))
    (b := init (Shape.Idx.first h_S_)) (a := (0 : Fin 1))).trans ?_
  refine congrArg (fun q => IntOp.andi (p q) (init (Shape.Idx.first h_S_))) (funext fun a => Fin.ext ?_)
  match a with
  | ⟨0, _⟩ => rfl
  | ⟨1, _⟩ => rfl
  | ⟨2, _⟩ => rfl

/-- The dimension numbers of the gather that takes one entry per row along axis 1. -/
abbrev alongDims : GatherDims S4096x1000 S4096x1x1 S4096x1 := gather_S4096x1000_S4096x1x1_S4096x1_n_1_0_0_1_2_11

/-- That gather read at (b, 0): row b of the operand at the start index idx[b, 0, 0], read signed and clamped
    into the row. -/
theorem gather_along_apply {α : Type} (x : S4096x1000.Idx → α) (idx : IVec S4096x1x1 32) (b : Fin 4096) :
    Host.gather alongDims x idx (ix2 b (0 : Fin 1))
      = x (ix2 b ⟨min (idx (ix3 b (0 : Fin 1) (0 : Fin 1))).toInt.toNat 999, by omega⟩) := by
  have h0 : alongDims.start (ix2 b (0 : Fin 1)) idx (0 : Fin 2) + alongDims.batchCoord (ix2 b (0 : Fin 1)) (0 : Fin 2)
      + alongDims.offCoord (ix2 b (0 : Fin 1)) (0 : Fin 2) = b.val := by
    rw [GatherDims.start_batching alongDims _ _ _ (by decide : (0 : Fin 2) ∈ alongDims.operandBatchingDims),
      GatherDims.offCoord_eq_zero alongDims _ _ (by decide : (0 : Fin 2) ∉ alongDims.sKept), Nat.zero_add, Nat.add_zero]
    unfold GatherDims.batchCoord
    rw [dif_pos (by decide : (0 : Fin 2) ∈ alongDims.operandBatchingDims)]
    rfl
  have h1 : alongDims.start (ix2 b (0 : Fin 1)) idx (1 : Fin 2) + alongDims.batchCoord (ix2 b (0 : Fin 1)) (1 : Fin 2)
      + alongDims.offCoord (ix2 b (0 : Fin 1)) (1 : Fin 2) = min (idx (ix3 b (0 : Fin 1) (0 : Fin 1))).toInt.toNat 999 := by
    rw [GatherDims.batchCoord_eq_zero alongDims _ _ (by decide : (1 : Fin 2) ∉ alongDims.operandBatchingDims),
      GatherDims.offCoord_eq_zero alongDims _ _ (by decide : (1 : Fin 2) ∉ alongDims.sKept)]
    simp only [Nat.add_zero]
    unfold GatherDims.start
    rw [dif_pos (by decide : (1 : Fin 2) ∈ alongDims.startIndexMap)]
    have hsi : alongDims.siIdx (ix2 b (0 : Fin 1)) ⟨List.idxOf (1 : Fin 2) alongDims.startIndexMap,
        List.idxOf_lt_length_iff.2 (by decide : (1 : Fin 2) ∈ alongDims.startIndexMap)⟩ = ix3 b (0 : Fin 1) (0 : Fin 1) := by
      funext c; refine Fin.ext ?_
      match c with
      | ⟨0, _⟩ => rfl
      | ⟨1, _⟩ => rfl
      | ⟨2, _⟩ => rfl
    rw [hsi]
    rfl
  unfold Host.gather
  refine congrArg x (funext fun a => Fin.ext ?_)
  match a with
  | ⟨0, _⟩ => exact h0
  | ⟨1, _⟩ => exact h1

/-! ## A label word that names a class: below 1000, so non-negative as a signed word, at most 999, and its own clamp -/

theorem word_slt_zero (w : BitVec 32) (h : w.toNat < 1000) : IntOp.cmpi .slt w 0#32 = 0#1 :=
  eq_zero_of_ne_one fun e => by
    have := (StableHlo.Predicate.slt_iff_toNat (a := w) (b := 0#32) (by omega) (by decide)).1 e
    simp at this
theorem word_sge_zero (w : BitVec 32) (h : w.toNat < 1000) : IntOp.cmpi .sge w 0#32 = 1#1 :=
  (StableHlo.Predicate.sge_iff_toNat (a := w) (b := 0#32) (by omega) (by decide)).2 (Nat.zero_le _)
theorem word_sle_999 (w : BitVec 32) (h : w.toNat < 1000) : IntOp.cmpi .sle w 999#32 = 1#1 :=
  (StableHlo.Predicate.sle_iff_toNat (a := w) (b := 999#32) (by omega) (by decide)).2 (by
    show w.toNat ≤ 999; omega)
theorem word_clamp (w : BitVec 32) (h : w.toNat < 1000) : min w.toInt.toNat 999 = w.toNat := by
  rw [StableHlo.Predicate.toInt_eq_toNat_of_lt (a := w) (by omega), Int.toNat_natCast]; omega

/-! ## The stages, row by row -/

/-- Where the squared-norm sum of row b reads the feature array. -/
theorem idx_norm (b : Fin 4096) (d k : Fin 512) :
    idx_main_call0_v1 (idx_main_call0_v2 (idx_main_v3 (ix2 b d))) k = ix2 b k :=
  funext fun a => Fin.ext (by match a with | ⟨0, _⟩ => rfl | ⟨1, _⟩ => rfl)

/-- The normalized features: entry (b, d) is entry d of row b divided by the row's floored norm. -/
theorem featn_apply (x0 : Feat) (b : Fin 4096) (d : Fin 512) :
    val_main_v4 (F := Ideal) x0 (ix2 b d) = Cert.Spec.normRow (fun d' => x0 (ix2 b d')) d := by
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, idx_norm]
  rfl

/-- The scores: entry (b, c, k) is the inner product of the normalized row b with prototype k of class c. -/
theorem score_apply (x0 : Feat) (x2 : Proto) (b : Fin 4096) (c : Fin 1000) (k : Fin 10) :
    val_main_v5 (F := Ideal) x0 x2 (ix3 b c k)
      = Cert.Spec.score (Cert.Spec.normRow fun d => x0 (ix2 b d)) (fun c k d => x2 (ix3 c k d)) c k := by
  rw [val_main_v5_apply]
  unfold Cert.Spec.score
  refine Finset.sum_congr rfl fun d _ => ?_
  have el : lidx_main_v5 (ix3 b c k) d = ix2 b d :=
    funext fun a => Fin.ext (by match a with | ⟨0, _⟩ => rfl | ⟨1, _⟩ => rfl)
  have er : ridx_main_v5 (ix3 b c k) d = ix3 c k d :=
    funext fun a => Fin.ext (by match a with | ⟨0, _⟩ => rfl | ⟨1, _⟩ => rfl | ⟨2, _⟩ => rfl)
  rw [el, er, featn_apply]

/-- The best score of class c for row b. -/
theorem best_apply (x0 : Feat) (x2 : Proto) (b : Fin 4096) (c : Fin 1000) :
    val_main_v6 (F := Ideal) x0 x2 (ix2 b c)
      = Cert.Spec.best (Cert.Spec.normRow fun d => x0 (ix2 b d)) (fun c k d => x2 (ix3 c k d)) c := by
  unfold val_main_v6
  refine (reduce_max_apply _ _ b c).trans ?_
  rw [val_main_cst_0_apply]
  show Finset.fold max (Ideal.ofBits .f32 0xFF800000#32) _ _ = _
  rw [Cert.RowMath.ofBits_neg_inf]
  unfold Cert.Spec.best
  exact congrArg (fun f => Finset.fold max ⊥ f (Finset.univ : Finset (Fin 10))) (funext fun k => score_apply x0 x2 b c k)

/-- The logits: entry (b, c) is the best score times the inverse temperature. -/
theorem logit_apply (x0 : Feat) (x2 : Proto) (b : Fin 4096) (c : Fin 1000) :
    val_main_v8 (F := Ideal) x0 x2 (ix2 b c)
      = Cert.Spec.logit (Cert.Spec.normRow fun d => x0 (ix2 b d)) (fun c k d => x2 (ix3 c k d)) c := by
  rw [val_main_v8_apply, val_main_v7_apply, val_main_cst_1_apply, best_apply]
  show Ideal.div _ (Ideal.ofBits .f32 0x3DCCCCCD#32) = _
  rw [Cert.RowMath.div_tenth]
  rfl

/-- The start index of row b's gather is the row's label word: a word below 1000 is not negative, so it is kept. -/
theorem idx_word (x1 : Lab) (b : Fin 4096) (hw : (x1 (ix1 b)).toNat < 1000) :
    val_main_call1_v5 (F := Ideal) x1 (ix3 b (0 : Fin 1) (0 : Fin 1)) = x1 (ix1 b) := by
  have e5 : idx_main_call1_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  have e9 : idx_main_v9 (ix2 b (0 : Fin 1)) = ix1 b :=
    funext fun a => Fin.ext (by match a with | ⟨0, _⟩ => rfl)
  rw [val_main_call1_v5_apply, e5, val_main_call1_v4_apply, val_main_call1_v1_apply, val_main_v9_apply, e9,
    val_main_call1_v0_apply, val_main_call1_c_apply, word_slt_zero _ hw, select_zero]

/-- The entry taken for row b: the logit of the row's own label. -/
theorem taken_apply (x0 : Feat) (x1 : Lab) (x2 : Proto) (b : Fin 4096) (hw : (x1 (ix1 b)).toNat < 1000) :
    val_main_v11 (F := Ideal) x0 x1 x2 (ix1 b)
      = Cert.Spec.pick (Cert.Spec.logit (Cert.Spec.normRow fun d => x0 (ix2 b d)) fun c k d => x2 (ix3 c k d)) (x1 (ix1 b)) := by
  have e11 : idx_main_v11 (ix1 b) = ix2 b (0 : Fin 1) :=
    funext fun a => Fin.ext (by
      match a with
      | ⟨0, _⟩ => exact Nat.div_one _
      | ⟨1, _⟩ => rfl)
  have hidx := idx_word x1 b hw
  have hand : IntOp.andi (IntOp.andi 1#1 1#1) 1#1 = 1#1 := by decide
  have h12 : val_main_call1_v12 (F := Ideal) x1 (ix2 b (0 : Fin 1)) = 1#1 := by
    unfold val_main_call1_v12
    rw [reduce_and_apply, val_main_call1_v11_apply, val_main_call1_v7_apply, val_main_call1_v10_apply, hidx,
      val_main_call1_v6_apply, val_main_call1_c_2_apply, val_main_call1_v9_apply, val_main_call1_v8_apply,
      val_main_call1_c_1_apply, val_main_call1_c_3_apply, word_sge_zero _ hw, word_sle_999 _ hw, hand]
  have h13 : val_main_call1_v13 (F := Ideal) x0 x1 x2 (ix2 b (0 : Fin 1))
      = val_main_v8 (F := Ideal) x0 x2 (ix2 b ⟨(x1 (ix1 b)).toNat, hw⟩) := by
    unfold val_main_call1_v13
    refine (gather_along_apply _ _ b).trans ?_
    refine congrArg (fun q => val_main_v8 (F := Ideal) x0 x2 (ix2 b q)) (Fin.ext ?_)
    show min (val_main_call1_v5 (F := Ideal) x1 (ix3 b (0 : Fin 1) (0 : Fin 1))).toInt.toNat 999 = (x1 (ix1 b)).toNat
    rw [hidx]
    exact word_clamp _ hw
  rw [val_main_v11_apply, e11, val_main_v10_apply, h12, h13, select_one, logit_apply]
  unfold Cert.Spec.pick
  rw [dif_pos hw]

/-- Row b's term: the logit of its own label minus the logarithm of the sum of the exponentials of its logits. -/
theorem row_apply (x0 : Feat) (x1 : Lab) (x2 : Proto) (b : Fin 4096) (hw : (x1 (ix1 b)).toNat < 1000) :
    val_main_v15 (F := Ideal) x0 x1 x2 (ix1 b)
      = Cert.Spec.rowTerm (fun d => x0 (ix2 b d)) (fun c k d => x2 (ix3 c k d)) (x1 (ix1 b)) := by
  have e13 : ∀ c : Fin 1000, idx_main_v13 (ix1 b) c = ix2 b c := fun c =>
    funext fun a => Fin.ext (by match a with | ⟨0, _⟩ => rfl | ⟨1, _⟩ => rfl)
  rw [val_main_v15_apply, val_main_v14_apply, val_main_v13_apply, val_main_cst_2_apply, taken_apply x0 x1 x2 b hw]
  simp only [val_main_v12_apply, e13, logit_apply]
  show _ - Ideal.log (Ideal.ofBits .f32 0x00000000#32 + _) = _
  rw [Cert.RowMath.ofBits_zero, zero_add]
  rfl

/-- The reference's result is the loss, whenever every label word names a class. -/
theorem result_eq_loss (x0 : (⟨S4096x512, .f32⟩ : BufTy).Contents (Elt Ideal)) (x1 : (⟨S4096, .i32⟩ : BufTy).Contents (Elt Ideal))
    (x2 : (⟨S1000x10x512, .f32⟩ : BufTy).Contents (Elt Ideal)) (hlab : ∀ i : S4096.Idx, (x1 i).toNat < 1000) (i : S_.Idx) :
    val_main_v18 (F := Ideal) x0 x1 x2 i = Cert.Spec.loss x0 x1 x2 := by
  rw [val_main_v18_apply, val_main_v17_apply, val_main_v16_apply, val_main_cst_3_apply, val_main_cst_4_apply,
    Cert.LibSums.sum_idx1]
  simp only [fun p : Fin 4096 => row_apply x0 x1 x2 p (hlab (ix1 p))]
  rfl

end Cert.ReferenceIdeal.RefValue

end
-- ==== Proof.PreFacts.lean ====
/-
  What the precondition says of the arguments: every entry of the feature array and of the prototype array is a real
  number (its absolute value is below +∞), and every label word, read as a natural number, is below 1000 (it is
  non-negative and below 1000 as a signed word).
-/
import proofs.«405886_j88708254531874_1_alg».proof.Proof.Gen.Pre_finite_inputs
import proofs.«405886_j88708254531874_1_alg».proof.Proof.RowMath
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs Cert.RowMath

instance : Subsingleton S_.Idx := ⟨fun a b => funext fun d => d.elim0⟩

/-- An extended real whose absolute value `max x (-x)` is below `+∞` is a real number. -/
theorem isReal_of_abs_lt (x : EReal)
    (h : Ideal.cmp .olt (max x (-x)) (Ideal.ofBits .f32 0x7F800000#32) = 1#1) : IsReal x := by
  rw [ofBits_pos_inf] at h
  have h' : BitVec.ofBool (decide (max x (-x) < ⊤)) = 1#1 := h
  have hlt : max x (-x) < ⊤ := by
    cases hd : decide (max x (-x) < ⊤) with
    | true => exact of_decide_eq_true hd
    | false => rw [hd] at h'; exact absurd h' (by decide)
  refine ⟨fun hb => ?_, fun ht => ?_⟩
  · rw [hb, EReal.neg_bot] at hlt; simp at hlt
  · rw [ht] at hlt; simp at hlt

/-- A signed 32-bit word that is at least 0 and below 1000 is, read unsigned, below 1000. -/
theorem toNat_lt_of_signed (w : BitVec 32) (h0 : (0#32 : BitVec 32).toInt ≤ w.toInt) (h1 : w.toInt < (1000#32 : BitVec 32).toInt) :
    w.toNat < 1000 := by
  have e0 : (0#32 : BitVec 32).toInt = 0 := by decide
  have e1 : (1000#32 : BitVec 32).toInt = 1000 := by decide
  rw [e0] at h0; rw [e1] at h1
  have := BitVec.toInt_eq_toNat_cond w
  have hw := w.isLt
  split at this <;> omega

variable (a0 : FVec Ideal S4096x512 .f32) (a1 : IVec S4096 32) (a2 : FVec Ideal S1000x10x512 .f32)
  (a3 : FVec Ideal S4096x1000 .f32) (a4 : IVec S1000 32)

/-- The precondition, decoded. -/
theorem of_pre (h : fn (F := Ideal) a0 a1 a2 a3 a4 = fun _ => 1#1) :
    (∀ i, IsReal (a0 i)) ∧ (∀ i, IsReal (a2 i)) ∧ (∀ i, (a1 i).toNat < 1000) := by
  have h0 := congrFun h ValueIdx.ix0
  dsimp only [fn, fn_part1] at h0
  obtain ⟨hB, h1⟩ := IntOp.andi_eq_one.1 (show IntOp.andi _ _ = 1#1 from h0)
  obtain ⟨hC, _⟩ := IntOp.andi_eq_one.1 (show IntOp.andi _ _ = 1#1 from hB)
  obtain ⟨hx0, hx2⟩ := IntOp.andi_eq_one.1 (show IntOp.andi _ _ = 1#1 from hC)
  refine ⟨fun i => ?_, fun i => ?_, fun i => ?_⟩
  · exact isReal_of_abs_lt (a0 i) (Host.reduce_andi_all _ _ _ _ _ hx0 i)
  · exact isReal_of_abs_lt (a2 i) (Host.reduce_andi_all _ _ _ _ _ hx2 i)
  · have e := Host.reduce_andi_all _ _ _ _ _ h1 i
    obtain ⟨e0, e1⟩ := IntOp.andi_eq_one.1 (show IntOp.andi _ _ = 1#1 from e)
    exact toNat_lt_of_signed (a1 i) (IntOp.cmpi_sge.1 e0) (IntOp.cmpi_slt.1 e1)

end Cert.PreFacts

end
-- ==== Proof.Claims.lean ====
/-
  The claims of the certificate, assembled.

  Each program runs and keeps its argument arrays; the idealized kernel differs from the kernel as printed in one
  named constant, the inverse temperature; and at the ideal values the idealized kernel and the reference, run from
  memories that agree on the arguments, end with one and the same result: the loss of the launch arrays. The
  reference's half of that is its run read row by row; the kernel's half is taken here as a hypothesis, stated as
  the kernel's own run states it.
-/
import proofs.«405886_j88708254531874_1_alg».proof.Defs
import proofs.«405886_j88708254531874_1_alg».proof.Proof.Gen.Kernel
import proofs.«405886_j88708254531874_1_alg».proof.Proof.Gen.Kernel.Frame
import proofs.«405886_j88708254531874_1_alg».proof.Proof.Gen.KernelIdeal
import proofs.«405886_j88708254531874_1_alg».proof.Proof.Gen.KernelIdeal.Frame
import proofs.«405886_j88708254531874_1_alg».proof.Proof.Gen.ReferenceIdeal
import proofs.«405886_j88708254531874_1_alg».proof.Proof.Gen.Pre_finite_inputs
import proofs.«405886_j88708254531874_1_alg».proof.Proof.Gen.ReferenceIdeal.Run
import proofs.«405886_j88708254531874_1_alg».proof.Proof.Gen.ReferenceIdeal.Read
import proofs.«405886_j88708254531874_1_alg».proof.Proof.RefRow
import proofs.«405886_j88708254531874_1_alg».proof.Proof.PreFacts
import proofs.«405886_j88708254531874_1_alg».proof.Proof.Spec
import Idealize.ShloMosaic.PureOps.IdealRules

noncomputable section

namespace Cert.Proof.Claims

open Idealize.ShloMosaic Idealize.ShloMosaic.TcCoe Idealize.SL.Sem

/-- The kernel as printed runs and keeps its arguments. -/
theorem frame_p : Cert.frame_Kernel := fun m ρ _ => Cert.Kernel.Gen.frame m ρ

/-- The idealized kernel runs and keeps its arguments. -/
theorem frame_pi : Cert.frame_KernelIdeal := fun m ρ _ => Cert.KernelIdeal.Gen.frame m ρ

/-- The reference runs and keeps its arguments: its run, less what it says of the result. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the inverse temperature the reciprocal of the temperature's
    single-precision value, and the printed constant is that value at the ideal instance. -/
theorem preserves : Cert.preserves_Kernel_KernelIdeal :=
  IdealRules.named_const.statement Cert.KernelIdeal.κ "inv_temp" .f32 0x41200000#32 ((134217728 / 13421773 : ℝ) : EReal) rfl

/-- The kernel program's run, as its own half of the proof states it: the result is the loss of the launch arrays, the
    arguments end as launched. -/
def KernelRun : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v12)
          = (fun _ => Cert.Spec.loss (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- At the ideal values both programs end with the loss of the launch arrays: the kernel by its run, the reference by
    its run read row by row at arguments that agree with the kernel's, whose label words all name a class by the
    precondition. -/
theorem algebraic_of (hk : KernelRun) : Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), hk m ρ hpre, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal) _ _ _).trans ?_
  rw [(hagree c).1, (hagree c).2.1, (hagree c).2.2.1]
  funext i
  exact Cert.ReferenceIdeal.RefValue.result_eq_loss _ _ _ (fun j => (Cert.PreFacts.of_pre _ _ _ _ _ (hpre c)).2.2 j) i

/-- Everything the certificate claims, given the kernel's run. -/
theorem claim_of (hk : KernelRun) : Cert.Claim :=
  ⟨Cert.Kernel.Gen.facts, Cert.KernelIdeal.Gen.facts, Cert.ReferenceIdeal.Gen.facts, Cert.Pre_finite_inputs.Gen.facts,
    frame_p, frame_pi, frame_ri, preserves, algebraic_of hk⟩

end Cert.Proof.Claims

end
-- ==== Proof.HostAt.lean ====
/-
  The host operations that prepare the kernel's operands, read at an entry.

  The feature array is divided, row by row, by the row's Euclidean norm floored at `1e-12`: entry `(b, d)` of the
  result is the normalized row `b` at `d`. The prototype array is transposed from (class, prototype, feature) to
  (prototype, class, feature): entry `(k, c, d)` of the result is entry `(c, k, d)` of the operand. The label
  vector is reshaped to a column: entry `(b, 0)` is entry `b`.
-/
import Idealize.ShloMosaic.Lib.Pipeline.Value
import Idealize.ShloMosaic.Lib.ValueIdx
import Idealize.ShloMosaic.PureOps.Ideal.Laws
import proofs.«405886_j88708254531874_1_alg».proof.Proof.Spec

noncomputable section

namespace Cert.HostAt

open Idealize.ShloMosaic Idealize.ShloMosaic.ValueIdx

abbrev SX : Shape := ⟨2, ![4096, 512]⟩
abbrev SR : Shape := ⟨1, ![4096]⟩
abbrev SC : Shape := ⟨2, ![4096, 1]⟩
abbrev S0 : Shape := ⟨0, ![]⟩
abbrev SP : Shape := ⟨3, ![1000, 10, 512]⟩
abbrev SQ : Shape := ⟨3, ![10, 1000, 512]⟩

section Norm

variable (x : FVec Ideal SX .f32) (h1 : SX.ReducesTo [1] SR) (h0 : 0 < S0.numel)
  (hb1 : SR.BroadcastsInDim SC (![0] : Fin SR.rank → Fin SC.rank)) (hb2 : S0.BroadcastsInDim SC (![] : Fin S0.rank → Fin SC.rank))
  (hb3 : SC.BroadcastsInDim SX (![0, 1] : Fin SC.rank → Fin SX.rank))

/-- The sum of a row's squares, from the initial value zero. -/
theorem sumsq_apply (b : Fin 4096) :
    Host.reduceAdd (mulf x x) (constant (F := Ideal) S0 .f32 0x00000000#32) h1 h0 (ix1 b)
      = Ideal.ofBits .f32 0x00000000#32 + ∑ d : Fin 512, x (ix2 b d) * x (ix2 b d) := by
  generalize hy : mulf x x = y
  simp only [Host.reduceAdd, Ideal.hostReduceAdd_def]
  rw [Ideal.hostReduceAdd_single h1 (by decide)]
  refine congrArg (_ + ·) (Finset.sum_congr rfl fun k _ => ?_)
  subst hy
  exact congrArg (fun i => x i * x i) (funext fun a => Fin.ext (by match a with | ⟨0, _⟩ => rfl | ⟨1, _⟩ => rfl))

/-- The normalized features at `(b, d)`. -/
theorem featn_apply (b : Fin 4096) (d : Fin 512) :
    Host.divf x (broadcastInDim (s := SC) SX ![0, 1] hb3 (maximumf (Host.sqrt (broadcastInDim (s := SR) SC ![0] hb1
        (Host.reduceAdd (mulf x x) (constant (F := Ideal) S0 .f32 0x00000000#32) h1 h0)))
        (broadcastInDim (s := S0) SC ![] hb2 (constant (F := Ideal) S0 .f32 0x2B8CBCCC#32)))) (ix2 b d)
      = Cert.Spec.normRow (fun d' => x (ix2 b d')) d := by
  generalize hs : Host.reduceAdd (mulf x x) (constant (F := Ideal) S0 .f32 0x00000000#32) h1 h0 = s
  generalize he : constant (F := Ideal) S0 .f32 0x2B8CBCCC#32 = e
  have e3 := broadcastInDim_apply _ hb3 (maximumf (Host.sqrt (broadcastInDim (s := SR) SC ![0] hb1 s)) (broadcastInDim (s := S0) SC ![] hb2 e))
    (ix2 b d) (ix2 b (0 : Fin 1)) (fun a => match a with
      | ⟨0, _⟩ => by show b.val = if (4096 : Nat) = 1 then 0 else b.val; rw [if_neg (by decide)]
      | ⟨1, _⟩ => by show 0 = if (1 : Nat) = 1 then 0 else d.val; rw [if_pos rfl])
  have e1 := broadcastInDim_apply _ hb1 s (ix2 b (0 : Fin 1)) (ix1 b) (fun a => match a with
      | ⟨0, _⟩ => by show b.val = if (4096 : Nat) = 1 then 0 else b.val; rw [if_neg (by decide)])
  have e2 := broadcastInDim_apply _ hb2 e (ix2 b (0 : Fin 1)) ix0 (fun a => a.elim0)
  show Ideal.div (x (ix2 b d)) (broadcastInDim (s := SC) SX ![0, 1] hb3 _ (ix2 b d)) = _
  rw [e3]
  show Ideal.div (x (ix2 b d)) (max (Ideal.sqrt (broadcastInDim (s := SR) SC ![0] hb1 s (ix2 b 0))) (broadcastInDim (s := S0) SC ![] hb2 e (ix2 b 0))) = _
  rw [e1, e2, ← hs, ← he, sumsq_apply]
  rfl

end Norm

/-- The transposed prototypes at `(k, c, d)`. -/
theorem protoT_apply (p : FVec Ideal SP .f32) (h : SP.Transposes [1, 0, 2] SQ) (k : Fin 10) (c : Fin 1000) (d : Fin 512) :
    transpose SQ [1, 0, 2] p h (ix3 k c d) = p (ix3 c k d) :=
  transpose_apply _ p h _ _ fun a => match a with | ⟨0, _⟩ => rfl | ⟨1, _⟩ => rfl | ⟨2, _⟩ => rfl

/-- The label column at `(b, q)`. -/
theorem labelCol_apply (l : IVec SR 32) (h : SR.ShapeCasts SC) (b : Fin 4096) (q : Fin 1) :
    shapeCast SC l h (ix2 b q) = l (ix1 b) :=
  shapeCast_apply l h (ix2 b q) (ix1 b) (by
    rw [Shape.rowMajor_val_two, Shape.rowMajor_val_one]
    show b.val = b.val * 1 + q.val
    have := q.isLt; omega)

end Cert.HostAt

end
-- ==== Proof.KerRow.lean ====
/-
  The value one kernel body stores, read at a row.

  For one grid point the body holds a 512×512 block of normalized feature rows, the whole 10×1000×512 prototype
  array and a 512×1 column of label words. For each of the ten prototype slabs it forms the 512×1000 matrix of the
  inner products of the rows with the slab's 1000 prototypes, keeps the running elementwise maximum over the ten
  slabs, and scales it by the inverse temperature: the logits. Then, per row: the maximum `M` of the 1000 logits,
  the sum of `exp (logit − M)`, and the logit at the row's own label (a sum masked by "class index = label word");
  the stored value is the own-label logit minus `M + log` of that sum. Read at row `r`, with every entry of the
  block and of the prototype array a real number, this is the own-label logit minus the log-sum-exp of the row's
  logits.
-/
import proofs.«405886_j88708254531874_1_alg».proof.Proof.Gen.KernelIdeal.Frame
import proofs.«405886_j88708254531874_1_alg».proof.Proof.Spec
import proofs.«405886_j88708254531874_1_alg».proof.Proof.RowMath
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.KerValue

open Idealize.ShloMosaic Idealize.ShloMosaic.ValueIdx Cert.KernelIdeal Cert.KernelIdeal.Gen

/-! ## The contraction's operand indices -/

theorem lhs_dot_0 (i : S512x1000.Idx) (q : dot_S512x512_S1000x512_S512x1000_1_1_0_0_n_n.contr.Idx) :
    (dot_S512x512_S1000x512_S512x1000_1_1_0_0_n_n.lhsIdx i q 0).val = (i 0).val := by
  unfold DotDims.lhsIdx
  rw [dif_neg (show ¬(0 : Fin S512x512.rank) ∈ dot_S512x512_S1000x512_S512x1000_1_1_0_0_n_n.lhsBatch by decide), dif_pos (show (0 : Fin S512x512.rank) ∈ dot_S512x512_S1000x512_S512x1000_1_1_0_0_n_n.lhsNonContracting by decide)]
  rfl
theorem lhs_dot_1 (i : S512x1000.Idx) (q : dot_S512x512_S1000x512_S512x1000_1_1_0_0_n_n.contr.Idx) :
    (dot_S512x512_S1000x512_S512x1000_1_1_0_0_n_n.lhsIdx i q 1).val = (q ⟨0, by decide⟩).val :=
  dot_S512x512_S1000x512_S512x1000_1_1_0_0_n_n.lhsIdx_val_of_single rfl i q
theorem rhs_dot_0 (i : S512x1000.Idx) (q : dot_S512x512_S1000x512_S512x1000_1_1_0_0_n_n.contr.Idx) :
    (dot_S512x512_S1000x512_S512x1000_1_1_0_0_n_n.rhsIdx i q 0).val = (i 1).val := by
  unfold DotDims.rhsIdx
  rw [dif_neg (show ¬(0 : Fin S1000x512.rank) ∈ dot_S512x512_S1000x512_S512x1000_1_1_0_0_n_n.rhsBatch by decide), dif_pos (show (0 : Fin S1000x512.rank) ∈ dot_S512x512_S1000x512_S512x1000_1_1_0_0_n_n.rhsNonContracting by decide)]
  rfl
theorem rhs_dot_1 (i : S512x1000.Idx) (q : dot_S512x512_S1000x512_S512x1000_1_1_0_0_n_n.contr.Idx) :
    (dot_S512x512_S1000x512_S512x1000_1_1_0_0_n_n.rhsIdx i q 1).val = (q ⟨0, by decide⟩).val :=
  dot_S512x512_S1000x512_S512x1000_1_1_0_0_n_n.rhsIdx_val_of_single rfl i q

/-- The product into a zero accumulator, at row `r` and column `c`: the inner product over the 512 features of row
    `r` of the left operand with row `c` of the right operand. -/
theorem matmul_rc (a : FVec Ideal S512x512 .bf16) (b : FVec Ideal S1000x512 .bf16) (r : Fin 512) (c : Fin 1000) :
    matmul dot_S512x512_S1000x512_S512x1000_1_1_0_0_n_n none a b (constant S512x1000 .f32 0x00000000#32) (ix2 r c)
      = ∑ d : Fin 512, a (ix2 r d) * b (ix2 c d) := by
  simp only [matmul]
  rw [Ideal.matmul_constant_zero_apply, ← Equiv.sum_comp (ValueIdx.contrEquiv1 dot_S512x512_S1000x512_S512x1000_1_1_0_0_n_n 512 rfl rfl).symm]
  refine Finset.sum_congr rfl fun k _ => ?_
  have hk := ValueIdx.contrEquiv1_symm_val dot_S512x512_S1000x512_S512x1000_1_1_0_0_n_n 512 rfl rfl k
  have el : dot_S512x512_S1000x512_S512x1000_1_1_0_0_n_n.lhsIdx (ix2 r c) ((ValueIdx.contrEquiv1 dot_S512x512_S1000x512_S512x1000_1_1_0_0_n_n 512 rfl rfl).symm k) = ix2 r k := funext fun ax => Fin.ext (by
    match ax with
    | ⟨0, _⟩ => exact lhs_dot_0 _ _
    | ⟨1, _⟩ => exact (lhs_dot_1 _ _).trans hk)
  have er : dot_S512x512_S1000x512_S512x1000_1_1_0_0_n_n.rhsIdx (ix2 r c) ((ValueIdx.contrEquiv1 dot_S512x512_S1000x512_S512x1000_1_1_0_0_n_n 512 rfl rfl).symm k) = ix2 c k := funext fun ax => Fin.ext (by
    match ax with
    | ⟨0, _⟩ => exact rhs_dot_0 _ _
    | ⟨1, _⟩ => exact (rhs_dot_1 _ _).trans hk)
  rw [el, er]

/-! ## One prototype slab -/

/-- A slab of the prototype array loaded through the unit-stride rectangle at offset `(k, 0, 0)` reads, at
    `(0, c, d)`, the array at `(k, c, d)`. -/
theorem ld_slab (x1 : FVec Ideal S10x1000x512 .bf16) (k : Fin 10) (off : Fin 3 → Nat) (hoff : off = ![k.val, 0, 0])
    (inb : ∀ a, off a + S1x1000x512.size a ≤ S10x1000x512.size a) (c : Fin 1000) (d : Fin 512) :
    View.ld (Val := Elt Ideal) (e' := .bf16) x1 (Rect.unit (s := S10x1000x512) off S1x1000x512.size inb) (ix3 (0 : Fin 1) c d) = x1 (ix3 k c d) := by
  subst hoff
  refine congrArg x1 (funext fun ax => Fin.ext ?_)
  match ax with
  | ⟨0, _⟩ => show k.val + 1 * 0 = k.val; omega
  | ⟨1, _⟩ => show 0 + 1 * c.val = c.val; omega
  | ⟨2, _⟩ => show 0 + 1 * d.val = d.val; omega

/-- The scores of a block of rows against one slab: the product of the block with the slab, its unit axis dropped. -/
def score (a : FVec Ideal S512x512 .bf16) (v : FVec Ideal S1x1000x512 .bf16) : FVec Ideal S512x1000 .f32 :=
  matmul dot_S512x512_S1000x512_S512x1000_1_1_0_0_n_n none a (shapeCast S1000x512 v shapeCasts_S1x1000x512_S1000x512)
    (constant S512x1000 .f32 0x00000000#32)

/-- The score of row `r` against prototype `k` of class `c`, the slab loaded at offset `(k, 0, 0)`. -/
theorem score_ld (x0 : FVec Ideal S512x512 .bf16) (x1 : FVec Ideal S10x1000x512 .bf16) (k : Fin 10) (off : Fin 3 → Nat)
    (hoff : off = ![k.val, 0, 0]) (inb : ∀ a, off a + S1x1000x512.size a ≤ S10x1000x512.size a) (r : Fin 512) (c : Fin 1000) :
    score x0 (View.ld (Val := Elt Ideal) (e' := .bf16) x1 (Rect.unit (s := S10x1000x512) off S1x1000x512.size inb)) (ix2 r c)
      = ∑ d : Fin 512, x0 (ix2 r d) * x1 (ix3 k c d) := by
  unfold score
  refine (matmul_rc x0 _ r c).trans (Finset.sum_congr rfl fun d _ => congrArg (x0 (ix2 r d) * ·) ?_)
  exact (shapeCast_1ab_ab_apply _ _ c d).trans (ld_slab x1 k off hoff inb c d)

/-- `score_ld` in the body's own spelling of the product. -/
theorem score_ld' (x0 : FVec Ideal S512x512 .bf16) (x1 : FVec Ideal S10x1000x512 .bf16) (k : Fin 10) (off : Fin 3 → Nat)
    (hoff : off = ![k.val, 0, 0]) (inb : ∀ a, off a + S1x1000x512.size a ≤ S10x1000x512.size a)
    (h : S1x1000x512.ShapeCasts S1000x512) (r : Fin 512) (c : Fin 1000) :
    matmul dot_S512x512_S1000x512_S512x1000_1_1_0_0_n_n none x0
        (shapeCast S1000x512 (View.ld (Val := Elt Ideal) (e' := .bf16) x1 (Rect.unit (s := S10x1000x512) off S1x1000x512.size inb)) h : FVec Ideal S1000x512 .bf16)
        (constant S512x1000 .f32 0x00000000#32) (ix2 r c)
      = ∑ d : Fin 512, x0 (ix2 r d) * x1 (ix3 k c d) :=
  score_ld x0 x1 k off hoff inb r c

/-! ## The running maximum over the ten prototypes -/

/-- The block of rows passes through its same-shape cast unchanged. -/
theorem pay2_eq (x0 : FVec Ideal S512x512 .bf16) : k0_pay2 (F := Ideal) x0 = x0 := shapeCast_self x0 _

/-- The labels pass through their same-shape cast unchanged. -/
theorem pay3_eq (x2 : IVec S512x1 32) : k0_pay3 (F := Ideal) x2 = x2 := shapeCast_self x2 _

/-- The first six slabs' running maximum at row `r`, class `c`. -/
theorem pay4_apply (x0 : FVec Ideal S512x512 .bf16) (x1 : FVec Ideal S10x1000x512 .bf16) (r : Fin 512) (c : Fin 1000) :
    k0_pay4 (F := Ideal) x0 (View.ld (Val := Elt Ideal) (e' := .bf16) x1 r0_2) (View.ld (Val := Elt Ideal) (e' := .bf16) x1 r0_3) (View.ld (Val := Elt Ideal) (e' := .bf16) x1 r0_4) (View.ld (Val := Elt Ideal) (e' := .bf16) x1 r0_5) (View.ld (Val := Elt Ideal) (e' := .bf16) x1 r0_6) (View.ld (Val := Elt Ideal) (e' := .bf16) x1 r0_7) (ix2 r c)
      = max (max (max (max (max (∑ d : Fin 512, x0 (ix2 r d) * x1 (ix3 (0 : Fin 10) c d))
          (∑ d : Fin 512, x0 (ix2 r d) * x1 (ix3 (1 : Fin 10) c d)))
          (∑ d : Fin 512, x0 (ix2 r d) * x1 (ix3 (2 : Fin 10) c d)))
          (∑ d : Fin 512, x0 (ix2 r d) * x1 (ix3 (3 : Fin 10) c d)))
          (∑ d : Fin 512, x0 (ix2 r d) * x1 (ix3 (4 : Fin 10) c d)))
          (∑ d : Fin 512, x0 (ix2 r d) * x1 (ix3 (5 : Fin 10) c d)) := by
  unfold k0_pay4
  simp only [maximumf_apply]
  rw [pay2_eq]
  exact congrArg₂ max (congrArg₂ max (congrArg₂ max (congrArg₂ max (congrArg₂ max
    (score_ld' x0 x1 0 _ rfl _ _ r c) (score_ld' x0 x1 1 _ rfl _ _ r c)) (score_ld' x0 x1 2 _ rfl _ _ r c))
    (score_ld' x0 x1 3 _ rfl _ _ r c)) (score_ld' x0 x1 4 _ rfl _ _ r c)) (score_ld' x0 x1 5 _ rfl _ _ r c)

/-! ## A row's reductions, the column they are kept in, and the label mask -/

theorem lift_ix (h : S512x1000.Reduces [1] S512) (r : Fin 512) (c : Fin 1000) : h.lift (ix1 r) c = ix2 r c := by
  funext a; refine Fin.ext ?_
  match a with
  | ⟨0, _⟩ => rfl
  | ⟨1, _⟩ => rfl

/-- The sum along the classes, at row `r`. -/
theorem rowSum_apply (L : FVec Ideal S512x1000 .f32) (h : S512x1000.Reduces [1] S512) (hφ : FKind.Formats .f32)
    (hacc : (0x00000000#32 : BitVec 32) = FKind.add.neutral .f32 hφ) (r : Fin 512) :
    multiReduction .add [1] S512 L 0x00000000#32 h hφ hacc (ix1 r) = ∑ c : Fin 1000, L (ix2 r c) := by
  refine (Ideal.multiReduction_add_single L _ h hφ hacc (ix1 r)).trans ?_
  exact Finset.sum_congr rfl fun c _ => congrArg L (lift_ix h r c)

/-- The maximum along the classes, at row `r`: the fold of `max` from `-∞`. -/
theorem rowMax_apply (L : FVec Ideal S512x1000 .f32) (h : S512x1000.Reduces [1] S512) (hφ : FKind.Formats .f32)
    (hacc : (0xFF800000#32 : BitVec 32) = FKind.maximumf.neutral .f32 hφ) (r : Fin 512) :
    multiReduction .maximumf [1] S512 L 0xFF800000#32 h hφ hacc (ix1 r)
      = (Finset.univ : Finset (Fin 1000)).fold max ⊥ (fun c => L (ix2 r c)) := by
  refine (Ideal.multiReduction_maximumf_single L _ h hφ hacc (ix1 r)).trans ?_
  have e : (L ∘ h.lift (ix1 r)) = fun c : Fin 1000 => L (ix2 r c) := funext fun c => congrArg L (lift_ix h r c)
  show (Finset.univ : Finset (Fin 1000)).fold max (Ideal.ofBits .f32 0xFF800000#32) (L ∘ h.lift (ix1 r)) = _
  rw [Cert.RowMath.ofBits_neg_inf, e]
  rfl

/-- A vector of 512 entries kept as a 512×1 column reads, at `(r, q)`, its entry `r`. -/
theorem colCast_apply {α : Type} (v : S512.Idx → α) (h : S512.ShapeCasts S512x1) (r : Fin 512) (q : Fin 1) :
    shapeCast S512x1 v h (ix2 r q) = v (ix1 r) :=
  shapeCast_apply v h _ _ (by
    have hq : q.val = 0 := by omega
    rw [Shape.rowMajor_val_one, Shape.rowMajor_val_two]
    show r.val = r.val * 1 + q.val
    rw [hq, Nat.mul_one, Nat.add_zero])

/-- A 512×1 column broadcast along the classes reads, at `(r, c)`, the column at `(r, 0)`. -/
theorem colBcast_apply {α : Type} (v : S512x1.Idx → α) (h : S512x1.Broadcasts S512x1000) (r : Fin 512) (c : Fin 1000) :
    broadcastTo S512x1000 v h (ix2 r c) = v (ix2 r (0 : Fin 1)) := by
  refine broadcastTo_apply v h (ix2 r c) (ix2 r (0 : Fin 1)) fun ax => ?_
  match ax with
  | ⟨0, _⟩ =>
    show r.val = if (512 : Nat) = 1 then 0 else r.val
    rw [if_neg (by decide)]
  | ⟨1, _⟩ => rfl

/-- A select on the equality of two 32-bit words is the `if` on it. -/
theorem cmpi_eq_select {α : Type} (a b : BitVec 32) (x y : α) :
    Scalar.select (IntOp.cmpi .eq a b) x y = if a = b then x else y := by
  by_cases h : a = b
  · rw [if_pos h, h]
    show (if BitVec.ofBool (b == b) = 1#1 then x else y) = x
    rw [beq_self_eq_true]; rfl
  · rw [if_neg h]
    show (if BitVec.ofBool (a == b) = 1#1 then x else y) = y
    rw [beq_eq_false_iff_ne.mpr h]; rfl

/-- The masked logits at `(r, c)`: the logit where the class index is the row's label word, `0` elsewhere. -/
theorem mask_apply (L : FVec Ideal S512x1000 .f32) (lab : IVec S512x1 32) (hi : S512x1000.Iotas .tc 32 [1])
    (hb : S512x1.Broadcasts S512x1000) (r : Fin 512) (c : Fin 1000) :
    select (cmpi .eq (iota .tc S512x1000 32 [1] hi) (broadcastTo S512x1000 lab hb)) L
        (broadcast S512x1000 (Scalar.ofBits (F := Ideal) .f32 0x00000000#32)) (ix2 r c)
      = if BitVec.ofNat 32 c.val = lab (ix2 r (0 : Fin 1)) then L (ix2 r c) else 0 := by
  rw [select_apply]
  show Scalar.select (IntOp.cmpi .eq (iota .tc S512x1000 32 [1] hi (ix2 r c)) (broadcastTo S512x1000 lab hb (ix2 r c)))
    (L (ix2 r c)) (Ideal.ofBits .f32 0x00000000#32) = _
  rw [iota_single_apply, colBcast_apply, Cert.RowMath.ofBits_zero]
  exact cmpi_eq_select _ _ _ _

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The body's value from the logits and the labels -/

/-- The row maxima of the logits, kept as a column. -/
def rowMaxCol (L : FVec Ideal S512x1000 .f32) : FVec Ideal S512x1 .f32 :=
  shapeCast S512x1 (multiReduction .maximumf [1] S512 L 0xFF800000#32 reduces_S512x1000_S512 (.inl rfl) rfl) shapeCasts_S512_S512x1

/-- The own-label logit of every row, kept as a column: the sum of the label-masked logits. -/
def positiveCol (L : FVec Ideal S512x1000 .f32) (lab : IVec S512x1 32) : FVec Ideal S512x1 .f32 :=
  shapeCast S512x1 (multiReduction .add [1] S512
    (select (cmpi .eq (iota .tc S512x1000 32 [1] iota_S512x1000_d1_w32) (broadcastTo S512x1000 lab broadcasts_S512x1_S512x1000)) L
      (broadcast S512x1000 (Scalar.ofBits (F := Ideal) .f32 0x00000000#32)))
    0x00000000#32 reduces_S512x1000_S512 (.inl rfl) rfl) shapeCasts_S512_S512x1

/-- The sums of the shifted exponentials of every row, kept as a column. -/
def expSumCol (L : FVec Ideal S512x1000 .f32) : FVec Ideal S512x1 .f32 :=
  shapeCast S512x1 (multiReduction .add [1] S512
    (exp (subf L (broadcastTo S512x1000 (rowMaxCol L) broadcasts_S512x1_S512x1000)))
    0x00000000#32 reduces_S512x1000_S512 (.inl rfl) rfl) shapeCasts_S512_S512x1

/-- What the body stores, from the logits and the labels. -/
def tail (L : FVec Ideal S512x1000 .f32) (lab : IVec S512x1 32) : FVec Ideal S512x1 .f32 :=
  subf (positiveCol L lab) (addf (rowMaxCol L) (log (expSumCol L)))

/-- The logits from the block of rows, the first six slabs' running maximum and the last four slabs. -/
def lanes (v1 : FVec Ideal S512x512 .bf16) (v26 : FVec Ideal S512x1000 .f32) (v27 v31 v35 v39 : FVec Ideal S1x1000x512 .bf16) :
    FVec Ideal S512x1000 .f32 :=
  mulf (maximumf (maximumf (maximumf (maximumf v26 (score v1 v27)) (score v1 v31)) (score v1 v35)) (score v1 v39))
    (broadcast S512x1000 (Named.named (F := Ideal) κ "inv_temp" (φ := .f32) 0x41200000#32))

/-- The body's last payload is `tail` of `lanes`: by unfolding. -/
theorem pay1_eq (v1 : FVec Ideal S512x512 .bf16) (v3 : IVec S512x1 32) (v26 : FVec Ideal S512x1000 .f32)
    (v27 v31 v35 v39 : FVec Ideal S1x1000x512 .bf16) :
    k0_pay1 (F := Ideal) v1 v3 v26 v27 v31 v35 v39 = tail (lanes v1 v26 v27 v31 v35 v39) v3 := rfl

theorem rowMaxCol_apply (L : FVec Ideal S512x1000 .f32) (r : Fin 512) :
    rowMaxCol L (ix2 r (0 : Fin 1)) = (Finset.univ : Finset (Fin 1000)).fold max ⊥ (fun c => L (ix2 r c)) :=
  (colCast_apply _ _ r 0).trans (rowMax_apply L _ _ _ r)

theorem positiveCol_apply (L : FVec Ideal S512x1000 .f32) (lab : IVec S512x1 32) (r : Fin 512) :
    positiveCol L lab (ix2 r (0 : Fin 1)) = Cert.Spec.pick (fun c => L (ix2 r c)) (lab (ix2 r (0 : Fin 1))) := by
  refine (colCast_apply _ _ r 0).trans ((rowSum_apply _ _ _ _ r).trans ?_)
  refine (Finset.sum_congr rfl fun c _ => mask_apply L lab _ _ r c).trans ?_
  exact Cert.RowMath.sum_pick (fun c => L (ix2 r c)) (lab (ix2 r (0 : Fin 1)))

theorem expSumCol_apply (L : FVec Ideal S512x1000 .f32) (r : Fin 512) :
    expSumCol L (ix2 r (0 : Fin 1))
      = ∑ c : Fin 1000, Ideal.exp (L (ix2 r c) - (Finset.univ : Finset (Fin 1000)).fold max ⊥ (fun c => L (ix2 r c))) := by
  refine (colCast_apply _ _ r 0).trans ((rowSum_apply _ _ _ _ r).trans ?_)
  refine Finset.sum_congr rfl fun c _ => ?_
  rw [exp_apply, subf_apply, colBcast_apply, rowMaxCol_apply]

/-- The stored value at row `r`, from real logits: the own-label logit minus the log-sum-exp. -/
theorem tail_row (L : FVec Ideal S512x1000 .f32) (lab : IVec S512x1 32) (r : Fin 512)
    (hL : ∀ c, Cert.RowMath.IsReal (L (ix2 r c))) :
    tail L lab (ix2 r (0 : Fin 1))
      = Cert.Spec.pick (fun c => L (ix2 r c)) (lab (ix2 r (0 : Fin 1))) - Cert.Spec.logSumExp (fun c => L (ix2 r c)) := by
  unfold tail
  rw [subf_apply, addf_apply, log_apply, positiveCol_apply, rowMaxCol_apply, expSumCol_apply,
    Cert.RowMath.lse_shift (fun c => L (ix2 r c)) hL]
  rfl

/-! ## The logits -/

/-- The named constant is the inverse temperature. -/
theorem inv_temp_value : Named.named (F := Ideal) κ "inv_temp" (φ := .f32) 0x41200000#32 = Cert.Spec.invTemp :=
  IdealRules.named_const.ideal_named_scalar _ _ _ _ rfl

/-- The logit the body computes at row `r`, class `c`: the best of the ten prototype scores times the inverse
    temperature. -/
theorem lanes_apply (x0 : FVec Ideal S512x512 .bf16) (x1 : FVec Ideal S10x1000x512 .bf16) (r : Fin 512) (c : Fin 1000) :
    (lanes x0 (k0_pay4 (F := Ideal) x0 (View.ld (Val := Elt Ideal) (e' := .bf16) x1 r0_2) (View.ld (Val := Elt Ideal) (e' := .bf16) x1 r0_3) (View.ld (Val := Elt Ideal) (e' := .bf16) x1 r0_4) (View.ld (Val := Elt Ideal) (e' := .bf16) x1 r0_5) (View.ld (Val := Elt Ideal) (e' := .bf16) x1 r0_6) (View.ld (Val := Elt Ideal) (e' := .bf16) x1 r0_7)) (View.ld (Val := Elt Ideal) (e' := .bf16) x1 r0_8) (View.ld (Val := Elt Ideal) (e' := .bf16) x1 r0_9) (View.ld (Val := Elt Ideal) (e' := .bf16) x1 r0_10) (View.ld (Val := Elt Ideal) (e' := .bf16) x1 r0_11)) (ix2 r c)
      = Cert.Spec.logit (fun d => x0 (ix2 r d)) (fun c k d => x1 (ix3 k c d)) c := by
  unfold lanes
  rw [mulf_apply, maximumf_apply, maximumf_apply, maximumf_apply, maximumf_apply, broadcast_apply, inv_temp_value]
  refine (congrArg (· * Cert.Spec.invTemp) ((congrArg₂ max (congrArg₂ max (congrArg₂ max (congrArg₂ max
    (pay4_apply x0 x1 r c) (score_ld x0 x1 6 ![6, 0, 0] rfl inb_S10x1000x512_S1x1000x512_6_0_0 r c)) (score_ld x0 x1 7 ![7, 0, 0] rfl inb_S10x1000x512_S1x1000x512_7_0_0 r c)) (score_ld x0 x1 8 ![8, 0, 0] rfl inb_S10x1000x512_S1x1000x512_8_0_0 r c)) (score_ld x0 x1 9 ![9, 0, 0] rfl inb_S10x1000x512_S1x1000x512_9_0_0 r c)).trans
    (Cert.RowMath.chain_max10 (fun k : Fin 10 => ∑ d : Fin 512, x0 (ix2 r d) * x1 (ix3 k c d))))).trans ?_
  rfl

/-- Real features and real prototypes give real logits. -/
theorem logit_isReal (x0 : FVec Ideal S512x512 .bf16) (x1 : FVec Ideal S10x1000x512 .bf16)
    (hx0 : ∀ i, Cert.RowMath.IsReal (x0 i)) (hx1 : ∀ i, Cert.RowMath.IsReal (x1 i)) (r : Fin 512) (c : Fin 1000) :
    Cert.RowMath.IsReal (Cert.Spec.logit (fun d => x0 (ix2 r d)) (fun c k d => x1 (ix3 k c d)) c) :=
  Cert.RowMath.isReal_mul
    (Cert.RowMath.isReal_fold_max10 _ fun k =>
      Cert.RowMath.isReal_sum _ _ fun d _ => Cert.RowMath.isReal_mul (hx0 _) (hx1 _))
    (Cert.RowMath.isReal_coe _)

/-! ## The stored block -/

/-- The one store covers the output block, and the row and label loads are of whole blocks: the stored block is
    `tail` of the logits and the labels. -/
theorem out0_3_eq (x0 : Vec Ideal S512x512 .bf16) (x1 : Vec Ideal S10x1000x512 .bf16) (x2 : Vec Ideal S512x1 .i32) :
    out0_3 (F := Ideal) x0 x1 x2 = tail (lanes x0 (k0_pay4 (F := Ideal) x0 (View.ld (Val := Elt Ideal) (e' := .bf16) x1 r0_2) (View.ld (Val := Elt Ideal) (e' := .bf16) x1 r0_3) (View.ld (Val := Elt Ideal) (e' := .bf16) x1 r0_4) (View.ld (Val := Elt Ideal) (e' := .bf16) x1 r0_5) (View.ld (Val := Elt Ideal) (e' := .bf16) x1 r0_6) (View.ld (Val := Elt Ideal) (e' := .bf16) x1 r0_7)) (View.ld (Val := Elt Ideal) (e' := .bf16) x1 r0_8) (View.ld (Val := Elt Ideal) (e' := .bf16) x1 r0_9) (View.ld (Val := Elt Ideal) (e' := .bf16) x1 r0_10) (View.ld (Val := Elt Ideal) (e' := .bf16) x1 r0_11)) x2 := by
  have hz : (![0, 0] : Fin 2 → Nat) = fun _ => 0 := by funext a; fin_cases a <;> rfl
  unfold out0_3
  rw [View.canon_unit_zero hz, View.ld_unit_zero hz, View.ld_unit_zero hz, pay2_eq, pay3_eq, pay1_eq]

/-- What the body stores at row r: the row's own-label logit minus the log-sum-exp of its 1000 logits. -/
theorem out_row (x0 : Vec Ideal S512x512 .bf16) (x1 : Vec Ideal S10x1000x512 .bf16) (x2 : Vec Ideal S512x1 .i32)
    (hx0 : ∀ i, Cert.RowMath.IsReal (x0 i)) (hx1 : ∀ i, Cert.RowMath.IsReal (x1 i)) (r : Fin 512) (q : Fin 1) :
    out0_3 (F := Ideal) x0 x1 x2 (ix2 r q)
      = Cert.Spec.pick (Cert.Spec.logit (fun d => x0 (ix2 r d)) (fun c k d => x1 (ix3 k c d))) (x2 (ix2 r q))
        - Cert.Spec.logSumExp (Cert.Spec.logit (fun d => x0 (ix2 r d)) (fun c k d => x1 (ix3 k c d))) := by
  obtain rfl : q = 0 := Subsingleton.elim _ _
  have hL : (fun c : Fin 1000 => (lanes x0 (k0_pay4 (F := Ideal) x0 (View.ld (Val := Elt Ideal) (e' := .bf16) x1 r0_2) (View.ld (Val := Elt Ideal) (e' := .bf16) x1 r0_3) (View.ld (Val := Elt Ideal) (e' := .bf16) x1 r0_4) (View.ld (Val := Elt Ideal) (e' := .bf16) x1 r0_5) (View.ld (Val := Elt Ideal) (e' := .bf16) x1 r0_6) (View.ld (Val := Elt Ideal) (e' := .bf16) x1 r0_7)) (View.ld (Val := Elt Ideal) (e' := .bf16) x1 r0_8) (View.ld (Val := Elt Ideal) (e' := .bf16) x1 r0_9) (View.ld (Val := Elt Ideal) (e' := .bf16) x1 r0_10) (View.ld (Val := Elt Ideal) (e' := .bf16) x1 r0_11)) (ix2 r c))
      = Cert.Spec.logit (fun d => x0 (ix2 r d)) (fun c k d => x1 (ix3 k c d)) := funext fun c => lanes_apply x0 x1 r c
  rw [out0_3_eq, tail_row _ _ r (fun c => (lanes_apply x0 x1 r c).symm ▸ logit_isReal x0 x1 hx0 hx1 r c), hL]

end Cert.KernelIdeal.KerValue

end
-- ==== Proof.KerArr.lean ====
/-
  The kernel program's output column after the region: entry `(b, 0)` is batch row `b`'s term of the loss.

  Grid point `t` works on rows `512 t … 512 t + 511`: it is handed block `t` of the normalized features and of the
  label column, and the whole transposed prototype array, and writes back block `t` of the output column. The eight
  blocks tile the column.
-/
import proofs.«405886_j88708254531874_1_alg».proof.Proof.Gen.KernelIdeal.Frame
import proofs.«405886_j88708254531874_1_alg».proof.Proof.Spec
import proofs.«405886_j88708254531874_1_alg».proof.Proof.RowMath
import proofs.«405886_j88708254531874_1_alg».proof.Proof.HostAt
import proofs.«405886_j88708254531874_1_alg».proof.Proof.KerRow
import Idealize.ShloMosaic.Lib.Pipeline.Value
import Idealize.ShloMosaic.Lib.ValueIdx
import Idealize.ShloMosaic.Lib.StableHlo.Run
import Idealize.ShloMosaic.PureOps.Ideal.Laws
import Idealize.ShloMosaic.PureOps.IdealRules

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.RowMath

variable (m : (ℓ : Loc nD τ sig) → Buf (Elt Ideal) ℓ)

/-! ## The operands as the region finds them -/

/-- The normalized features the region is handed, at `(b, d)`. -/
theorem V_featn (c : Dev nD) (b : Fin 4096) (d : Fin 512) :
    (V m c main_v5 : S4096x512.Idx → EReal) (ix2 b d)
      = Cert.Spec.normRow (fun d' => (m ((c : Thread nD τ).loc main_arg0) : S4096x512.Idx → EReal) (ix2 b d')) d := by
  have e : (V m c main_v5 : S4096x512.Idx → EReal) = truncf .bf16 (Host.divf (m ((c : Thread nD τ).loc main_arg0))
      (broadcastInDim S4096x512 (![0, 1] : Fin 2 → Fin S4096x512.rank) bcast_S4096x1_S4096x512_0_1
        (maximumf (Host.sqrt (broadcastInDim S4096x1 (![0] : Fin 1 → Fin S4096x1.rank) bcast_S4096_S4096x1_0
          (Host.reduceAdd (mulf (m ((c : Thread nD τ).loc main_arg0)) (m ((c : Thread nD τ).loc main_arg0)))
            (constant (F := Ideal) S_ .f32 0x00000000#32) reducesTo_S4096x512_S4096_d1 h_S_)))
          (broadcastInDim S4096x1 (![] : Fin 0 → Fin S4096x1.rank) bcast_S_S4096x1 (constant (F := Ideal) S_ .f32 0x2B8CBCCC#32)))))
      bitsLt_bf16_f32 := by
    dsimp only [V, V0]
    simp only [hostOps0, hostOps0_1, List.flatten_cons, List.flatten_nil, List.append_nil, List.cons_append, List.nil_append]
    after_results
    rfl
  rw [e]
  exact Cert.HostAt.featn_apply _ _ _ _ _ _ b d

/-- The transposed prototypes the region is handed, at `(k, c', d)`. -/
theorem V_protoT (c : Dev nD) (k : Fin 10) (c' : Fin 1000) (d : Fin 512) :
    (V m c main_v7 : S10x1000x512.Idx → EReal) (ix3 k c' d)
      = (m ((c : Thread nD τ).loc main_arg2) : S1000x10x512.Idx → EReal) (ix3 c' k d) := by
  have e : (V m c main_v7 : S10x1000x512.Idx → EReal) = truncf (F := Ideal) .bf16 (transpose S10x1000x512 [1, 0, 2]
      (m ((c : Thread nD τ).loc main_arg2)) transposes_S1000x10x512_S10x1000x512_1_0_2) bitsLt_bf16_f32 := by
    dsimp only [V, V0]
    simp only [hostOps0, hostOps0_1, List.flatten_cons, List.flatten_nil, List.append_nil, List.cons_append, List.nil_append]
    after_results
  rw [e]
  exact Cert.HostAt.protoT_apply _ _ k c' d

/-- The label column the region is handed, at `(b, q)`. -/
theorem V_label (c : Dev nD) (b : Fin 4096) (q : Fin 1) :
    (V m c main_v8 : S4096x1.Idx → BitVec 32) (ix2 b q)
      = (m ((c : Thread nD τ).loc main_arg1) : S4096.Idx → BitVec 32) (ix1 b) := by
  have e : (V m c main_v8 : S4096x1.Idx → BitVec 32)
      = shapeCast S4096x1 (m ((c : Thread nD τ).loc main_arg1)) shapeCasts_S4096_S4096x1 := by
    dsimp only [V, V0]
    simp only [hostOps0, hostOps0_1, List.flatten_cons, List.flatten_nil, List.append_nil, List.cons_append, List.nil_append]
    after_results
    rfl
  rw [e]
  exact Cert.HostAt.labelCol_apply _ _ b q

/-! ## Blocks -/

/-- The printed index maps over the eight grid points: the feature block, the label block and the output block of
    point `t` are block `t` along the rows; the prototype block is always the whole array. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of grid point `t`'s blocks is batch row `512 t + r`. -/
def rowNo (t : Fin cfg0.N) (r : Fin 512) : Fin 4096 :=
  ⟨t.val * 512 + r.val, by have ht : t.val < grid0.N := t.isLt; have hN : grid0.N = 8 := N_0; have := r.isLt; omega⟩

theorem blk_featn (c : Dev nD) (t : Fin cfg0.N) (r : Fin 512) (d : Fin 512) :
    iblk m c 0 t (ix2 r d) = (V m c main_v5 : S4096x512.Idx → EReal) (ix2 (rowNo t r) d) := by
  obtain ⟨e0, e1, -⟩ := idx_facts t
  show V m c main_v5 (((cfg0.win 0).blk t).view.emb (ix2 r d)) = V m c main_v5 (ix2 (rowNo t r) d)
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 512 + 1 * d.val = d.val; omega

theorem blk_protoT (c : Dev nD) (t : Fin cfg0.N) (k : Fin 10) (c' : Fin 1000) (d : Fin 512) :
    iblk m c 1 t (ix3 k c' d) = (V m c main_v7 : S10x1000x512.Idx → EReal) (ix3 k c' d) := by
  obtain ⟨-, -, e0, e1, e2, -⟩ := idx_facts t
  show V m c main_v7 (((cfg0.win 1).blk t).view.emb (ix3 k c' d)) = V m c main_v7 (ix3 k c' d)
  refine congrArg _ (funext fun a => Fin.ext ?_)
  match a with
  | ⟨0, _⟩ => show win0_1.index t (0 : Fin 3) * 10 + 1 * k.val = k.val; omega
  | ⟨1, _⟩ => show win0_1.index t (1 : Fin 3) * 1000 + 1 * c'.val = c'.val; omega
  | ⟨2, _⟩ => show win0_1.index t (2 : Fin 3) * 512 + 1 * d.val = d.val; omega

theorem blk_label (c : Dev nD) (t : Fin cfg0.N) (r : Fin 512) (q : Fin 1) :
    iblk m c 2 t (ix2 r q) = (V m c main_v8 : S4096x1.Idx → BitVec 32) (ix2 (rowNo t r) q) := by
  obtain ⟨-, -, -, -, -, e0, e1, -⟩ := idx_facts t
  show V m c main_v8 (((cfg0.win 2).blk t).view.emb (ix2 r q)) = V m c main_v8 (ix2 (rowNo t r) q)
  refine congrArg _ (funext fun a => Fin.ext ?_)
  match a with
  | ⟨0, _⟩ => show win0_2.index t (0 : Fin 2) * 512 + 1 * r.val = t.val * 512 + r.val; omega
  | ⟨1, _⟩ => show win0_2.index t (1 : Fin 2) * 1 + 1 * q.val = q.val; omega

/-! ## The output column -/

/-- Batch row `b`'s term, of the launch arrays. -/
def rowOf (c : Dev nD) (b : Fin 4096) : EReal :=
  Cert.Spec.rowTerm (fun d => (m ((c : Thread nD τ).loc main_arg0) : S4096x512.Idx → EReal) (ix2 b d))
    (fun c' k d => (m ((c : Thread nD τ).loc main_arg2) : S1000x10x512.Idx → EReal) (ix3 c' k d))
    ((m ((c : Thread nD τ).loc main_arg1) : S4096.Idx → BitVec 32) (ix1 b))

/-- The output column as one function of the launch arrays. -/
def column (c : Dev nD) : S4096x1.Idx → EReal := fun i => rowOf m c ⟨(i 0).val, idx2_lt0 i⟩

variable (hx : ∀ (c : Dev nD) i, IsReal ((m ((c : Thread nD τ).loc main_arg0) : S4096x512.Idx → EReal) i))
  (hp : ∀ (c : Dev nD) i, IsReal ((m ((c : Thread nD τ).loc main_arg2) : S1000x10x512.Idx → EReal) i))

include hx hp in
/-- What grid point `t` writes back is block `t` of the column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  funext j
  obtain ⟨r, q, rfl⟩ : ∃ (r : Fin 512) (q : Fin 1), j = ix2 r q := ⟨j 0, j 1, eq_ix2 j⟩
  show out0_3 (iblk m c 0 t) (iblk m c 1 t) (iblk m c 2 t) (ix2 r q) = column m c (((cfg0.win 3).blk t).view.emb (ix2 r q))
  have hb : (⟨((((cfg0.win 3).blk t).view.emb (ix2 r q)) 0).val, idx2_lt0 _⟩ : Fin 4096) = rowNo t r := by
    obtain ⟨-, -, -, -, -, -, -, e0, -⟩ := idx_facts t
    exact Fin.ext (by show win0_3.index t (0 : Fin 2) * 512 + 1 * r.val = t.val * 512 + r.val; omega)
  have hrow : (fun d => iblk m c 0 t (ix2 r d))
      = Cert.Spec.normRow (fun d' => (m ((c : Thread nD τ).loc main_arg0) : S4096x512.Idx → EReal) (ix2 (rowNo t r) d')) :=
    funext fun d => (blk_featn m c t r d).trans (V_featn m c (rowNo t r) d)
  have hpro : (fun c' k d => iblk m c 1 t (ix3 k c' d))
      = fun c' k d => (m ((c : Thread nD τ).loc main_arg2) : S1000x10x512.Idx → EReal) (ix3 c' k d) :=
    funext fun c' => funext fun k => funext fun d => (blk_protoT m c t k c' d).trans (V_protoT m c k c' d)
  have hlab : iblk m c 2 t (ix2 r q) = (m ((c : Thread nD τ).loc main_arg1) : S4096.Idx → BitVec 32) (ix1 (rowNo t r)) :=
    (blk_label m c t r q).trans (V_label m c (rowNo t r) q)
  have key : ∀ (xr xr' : Fin 512 → EReal) (p p' : Fin 1000 → Fin 10 → Fin 512 → EReal) (w w' : BitVec 32),
      xr = xr' → p = p' → w = w' →
      Cert.Spec.pick (Cert.Spec.logit xr p) w - Cert.Spec.logSumExp (Cert.Spec.logit xr p)
        = Cert.Spec.pick (Cert.Spec.logit xr' p') w' - Cert.Spec.logSumExp (Cert.Spec.logit xr' p') := by
    intro xr xr' p p' w w' h1 h2 h3; rw [h1, h2, h3]
  refine (out_row (iblk m c 0 t) (iblk m c 1 t) (iblk m c 2 t) ?_ ?_ r q).trans ?_
  · intro i
    obtain ⟨r', d', rfl⟩ : ∃ (r' : Fin 512) (d' : Fin 512), i = ix2 r' d' := ⟨i 0, i 1, eq_ix2 i⟩
    rw [blk_featn, V_featn]
    exact isReal_div_norm _ (fun d => hx c _) d'
  · intro i
    obtain ⟨k, c', d', rfl⟩ : ∃ (k : Fin 10) (c' : Fin 1000) (d' : Fin 512), i = ix3 k c' d' := ⟨i 0, i 1, i 2, eq_ix3 i⟩
    rw [blk_protoT, V_protoT]
    exact hp c _
  · exact (key _ _ _ _ _ _ hrow hpro hlab).trans (congrArg (rowOf m c) hb).symm

/-- An index of the column is in point `t`'s block iff each coordinate is in the block's range on its axis. -/
theorem mem_blk (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v9).slice (win0_3.rect t)).set ↔ _
  rw [View.set_slice_whole, Rect.mem_set_unit]
  exact Iff.rfl

/-- Row `b` of the column lies in the block of point `b / 512`. -/
theorem cover (i : S4096x1.Idx) : ∃ t : Fin cfg0.N, (cfg0.win 3).flush t = true ∧ i ∈ ((cfg0.win 3).blk t).view.set := by
  have hi0 : (i 0).val < 4096 := idx2_lt0 i
  have hi1 : (i 1).val < 1 := idx2_lt1 i
  have hN : grid0.N = 8 := N_0
  have ht : (i 0).val / 512 < grid0.N := by omega
  obtain ⟨-, -, -, -, -, -, -, e0, e1⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    have e0' : win0_3.index ⟨(i 0).val / 512, ht⟩ (0 : Fin 2) = (i 0).val / 512 := e0
    omega
  | ⟨1, _⟩ =>
    show win0_3.index ⟨(i 0).val / 512, ht⟩ (1 : Fin 2) * 1 ≤ (i 1).val ∧ (i 1).val < win0_3.index ⟨(i 0).val / 512, ht⟩ (1 : Fin 2) * 1 + 1
    omega

include hx hp in
/-- The output column after the region is that function of the launch arrays. -/
theorem final (c : Dev nD) : (dats m 0 c).arrAt 3 cfg0.N = column m c :=
  (dats m 0 c).arrAt_eq_of_cover 3 (column m c) (fun t _ => flushed_eq m hx hp c t) cover

end Cert.KernelIdeal.KerValue

end
-- ==== Proof.KerTail.lean ====
/-
  The kernel program's tail.

  After its one region the kernel program runs five host operations on the region's output column of 4096 row terms:
  a zero, the sum of the column from that zero, the constant 4096, the quotient of the sum by it, and the negation of
  the quotient. This module reads the result of that tail off the column, and states the program's run with that
  result and its arguments kept.
-/
import proofs.«405886_j88708254531874_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open scoped BigOperators

variable (m : (ℓ : Loc nD τ sig) → Buf (Elt Ideal) ℓ) (ρ : Dev nD → PrngReg)

/-- The column's total: a sum over the index set of a 4096-by-1 array of a function of the row coordinate alone is
    the sum over the 4096 rows. -/
theorem sum_column (R : Fin 4096 → EReal) :
    ∑ i : S4096x1.Idx, R ⟨(i 0).val, ValueIdx.idx2_lt0 i⟩ = ∑ b : Fin 4096, R b := by
  rw [ValueIdx.sum_idx2]
  refine Finset.sum_congr rfl fun a _ => ?_
  rw [Fin.sum_univ_one]

/-- The mean, negated: what the five host operations after the region make of a column of 4096 row terms. -/
theorem tail_of_final (c : Dev nD) (R : Fin 4096 → EReal)
    (hfin : (dats (F := Ideal) m 0 c).arrAt 3 cfg0.N = fun i : S4096x1.Idx => R ⟨(i 0).val, ValueIdx.idx2_lt0 i⟩) :
    Pipeline.afterTail₀ cfgs (dats (F := Ideal) m) 0 (V0 m) [hostOps1] c main_v12
      = fun _ => -(Ideal.div (Ideal.ofBits .f32 0x00000000#32 + ∑ b : Fin 4096, R b) (Ideal.ofBits .f32 0x45800000#32)) := by
  unfold Pipeline.afterTail₀
  show StableHlo.after hostOps1 _ (Proc.devRef .tc main_v12) = _
  after_results
  have hw : Pipeline.withArrays (cfgs 0).spec c (V0 m c) (fun w => (dats (F := Ideal) m 0 c).arrAt w (cfgs 0).N)
      (Proc.devRef .tc main_v9) = (dats (F := Ideal) m 0 c).arrAt 3 cfg0.N :=
    Pipeline.withArrays_arr (cfgs 0).spec launch0.win.arr_inj c _ _ 3
  rw [hw, hfin]
  funext j
  show -(Ideal.div (Ideal.hostReduceAdd reducesTo_S4096x1_S_d0_1 (fun i : S4096x1.Idx => R ⟨(i 0).val, ValueIdx.idx2_lt0 i⟩)
    (Ideal.ofBits .f32 0x00000000#32) j) (Ideal.ofBits .f32 0x45800000#32)) = _
  rw [Ideal.hostReduceAdd_total reducesTo_S4096x1_S_d0_1 (fun b => b.elim0), sum_column]

/-- The kernel program's run: its result is that value, its arguments end as launched. Every weakly fair execution
    ends with every buffer the region does not stage at what the tail makes of the region's exit contents: the result
    buffer at the negated mean by `tail_of_final`, each argument untouched by the tail and by the host operations
    before the region. -/
theorem run_of_final (R : Dev nD → Fin 4096 → EReal)
    (hfin : ∀ c, (dats (F := Ideal) m 0 c).arrAt 3 cfg0.N = fun i : S4096x1.Idx => R c ⟨(i 0).val, ValueIdx.idx2_lt0 i⟩) :
    θ_run (defs (F := Ideal)) (onTc (τ := τ) (main (F := Ideal))) ⟨m, fun _ => 0, ρ⟩ (fun r => ∀ c : Dev nD,
      r.2.mem ((c.tc : Thread nD τ).loc main_v12)
          = (fun _ => -(Ideal.div (Ideal.ofBits .f32 0x00000000#32 + ∑ b : Fin 4096, R c b) (Ideal.ofBits .f32 0x45800000#32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v12 (Pipeline.mem_restRefs_of main_v12 (by decide) (by decide))).trans (tail_of_final m c (R c) (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.KerRun.lean ====
/-
  The kernel program's run: under the precondition its result is the loss of the launch arrays.

  The precondition makes every feature and prototype entry a real number, so the output column after the region
  holds the row terms; the five host operations after the region turn the column into minus its mean.
-/
import proofs.«405886_j88708254531874_1_alg».proof.Defs
import proofs.«405886_j88708254531874_1_alg».proof.Proof.KerArr
import proofs.«405886_j88708254531874_1_alg».proof.Proof.KerTail
import proofs.«405886_j88708254531874_1_alg».proof.Proof.PreFacts

noncomputable section

namespace Cert.KernelIdeal.KerValue

open Cert.KernelIdeal Cert.KernelIdeal.Gen Idealize.ShloMosaic Idealize.ShloMosaic.TcCoe Idealize.SL.Sem

/-- Every weakly fair execution of the kernel program ends with the loss in its result and its arguments as launched. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v12)
          = (fun _ => Cert.Spec.loss (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hf := fun c => Cert.PreFacts.of_pre _ _ _ _ _ (hpre c)
  exact run_of_final m ρ (fun c b => rowOf m c b)
    (fun c => final m (fun c i => (hf c).1 i) (fun c i => (hf c).2.1 i) c)

end Cert.KernelIdeal.KerValue

end
-- ==== Proof.lean ====
/-
  The kernel and the reference compute the same loss over the extended reals.

  Both programs normalize each batch row of the feature array by its Euclidean norm floored at `1e-12`, score the row
  against every prototype by an inner product over the 512 features, take for each of the 1000 classes the best of its
  ten scores and scale it by the inverse temperature; a row's term is its own label's logit minus the logarithm of the
  sum of the exponentials of its logits, and the loss is minus the mean of the 4096 terms.

  The kernel works on blocks of 512 rows. It forms the ten score matrices by matrix products, takes their maximum
  entry by entry in a chain, multiplies by the named inverse temperature (the exact reciprocal of the temperature's
  single-precision value, by which the reference divides), subtracts the row maximum before exponentiating and adds it
  back after the logarithm, and reads the label's logit as a sum over the classes masked by `class = label`. For real
  logits the shifted log-sum-exp is the plain one; the masked sum picks the labelled entry whenever the label is a
  class number, which is where the reference's gather reads as well. The precondition gives exactly that: finite
  features and prototypes, labels in `[0, 1000)`. The reference needs no finiteness: dividing by the temperature is
  multiplying by its reciprocal on every extended real.
-/
import proofs.«405886_j88708254531874_1_alg».proof.Defs
import proofs.«405886_j88708254531874_1_alg».proof.Proof.Claims
import proofs.«405886_j88708254531874_1_alg».proof.Proof.KerRun

noncomputable section

namespace Cert.Proof

theorem claim : Cert.Claim := Cert.Proof.Claims.claim_of Cert.KernelIdeal.KerValue.run

end Cert.Proof

end
